-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x1024 : Shape := ⟨3, ![32, 128, 1024]⟩
abbrev S256x128x3 : Shape := ⟨3, ![256, 128, 3]⟩
abbrev S256x1x1 : Shape := ⟨3, ![256, 1, 1]⟩
abbrev S256 : Shape := ⟨1, ![256]⟩
abbrev S256x256x3 : Shape := ⟨3, ![256, 256, 3]⟩
abbrev S256x128x1 : Shape := ⟨3, ![256, 128, 1]⟩
abbrev S_ : Shape := ⟨0, ![]⟩

class Facts : Prop where
  bcast_S_S32x128x1024 : S_.BroadcastsInDim S32x128x1024 (![] : Fin 0 → Fin S32x128x1024.rank)
  reducesTo_S32x128x1024_S_d0_1_2 : S32x128x1024.ReducesTo [0, 1, 2] S_
  h_S_ : 0 < S_.numel
  bcast_S_S256x128x3 : S_.BroadcastsInDim S256x128x3 (![] : Fin 0 → Fin S256x128x3.rank)
  reducesTo_S256x128x3_S_d0_1_2 : S256x128x3.ReducesTo [0, 1, 2] S_
  bcast_S_S256x1x1 : S_.BroadcastsInDim S256x1x1 (![] : Fin 0 → Fin S256x1x1.rank)
  reducesTo_S256x1x1_S_d0_1_2 : S256x1x1.ReducesTo [0, 1, 2] S_
  bcast_S_S256 : S_.BroadcastsInDim S256 (![] : Fin 0 → Fin S256.rank)
  reducesTo_S256_S_d0 : S256.ReducesTo [0] S_
  bcast_S_S256x256x3 : S_.BroadcastsInDim S256x256x3 (![] : Fin 0 → Fin S256x256x3.rank)
  reducesTo_S256x256x3_S_d0_1_2 : S256x256x3.ReducesTo [0, 1, 2] S_
  bcast_S_S256x128x1 : S_.BroadcastsInDim S256x128x1 (![] : Fin 0 → Fin S256x128x1.rank)
  reducesTo_S256x128x1_S_d0_1_2 : S256x128x1.ReducesTo [0, 1, 2] S_

variable [Facts]

def fn_part2 {F : FTy → Type} [FloatOps F] (main_arg7 : FVec F S256x128x1 .f32) (main_arg8 : FVec F S256 .f32) (main_v33 : IVec S_ 1) : IVec S_ 1 :=
  let main_v34 : FVec F S256x128x1 .f32 := Host.absf main_arg7
  let main_cst_12 : FVec F S_ .f32 := constant S_ .f32 0x7F800000#32
  let main_v35 : FVec F S256x128x1 .f32 := broadcastInDim S256x128x1 ![] bcast_S_S256x128x1 main_cst_12
  let main_v36 : IVec S256x128x1 1 := cmpf .olt main_v34 main_v35
  let main_c_13 : IVec S_ 1 := constantI S_ 1 1#1
  let main_v37 : IVec S_ 1 := (fun x v => Host.reduce IntOp.andi x v reducesTo_S256x128x1_S_d0_1_2 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S256x256x3 .f32) (main_arg5 : FVec F S256x1x1 .f32) (main_arg6 : FVec F S256 .f32) (main_arg7 : FVec F S256x128x1 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256x3 .f32 := Host.absf main_arg4
  let main_cst_6 : FVec F S_ .f32 := constant S_ .f32 0x7F800000#32
  let main_v20 : FVec F S256x256x3 .f32 := broadcastInDim S256x256x3 ![] bcast_S_S256x256x3 main_cst_6
  let main_v21 : IVec S256x256x3 1 := cmpf .olt main_v19 main_v20
  let main_c_7 : IVec S_ 1 := constantI S_ 1 1#1
  let main_v22 : IVec S_ 1 := (fun x v => Host.reduce IntOp.andi x v reducesTo_S256x256x3_S_d0_1_2 h_S_) main_v21 main_c_7
  let main_v23 : IVec S_ 1 := andi main_v18 main_v22
  let main_v24 : FVec F S256x1x1 .f32 := Host.absf main_arg5
  let main_cst_8 : FVec F S_ .f32 := constant S_ .f32 0x7F800000#32
  let main_v25 : FVec F S256x1x1 .f32 := broadcastInDim S256x1x1 ![] bcast_S_S256x1x1 main_cst_8
  let main_v26 : IVec S256x1x1 1 := cmpf .olt main_v24 main_v25
  let main_c_9 : IVec S_ 1 := constantI S_ 1 1#1
  let main_v27 : IVec S_ 1 := (fun x v => Host.reduce IntOp.andi x v reducesTo_S256x1x1_S_d0_1_2 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S32x128x1024 .f32) (main_arg1 : FVec F S256x128x3 .f32) (main_arg2 : FVec F S256x1x1 .f32) (main_arg3 : FVec F S256 .f32) (main_arg4 : FVec F S256x256x3 .f32) (main_arg5 : FVec F S256x1x1 .f32) (main_arg6 : FVec F S256 .f32) (main_arg7 : FVec F S256x128x1 .f32) (main_arg8 : FVec F S256 .f32) : IVec S_ 1 :=
  let main_v0 : FVec F S32x128x1024 .f32 := Host.absf main_arg0
  let main_cst : FVec F S_ .f32 := constant S_ .f32 0x7F800000#32
  let main_v1 : FVec F S32x128x1024 .f32 := broadcastInDim S32x128x1024 ![] bcast_S_S32x128x1024 main_cst
  let main_v2 : IVec S32x128x1024 1 := cmpf .olt main_v0 main_v1
  let main_c : IVec S_ 1 := constantI S_ 1 1#1
  let main_v3 : IVec S_ 1 := (fun x v => Host.reduce IntOp.andi x v reducesTo_S32x128x1024_S_d0_1_2 h_S_) main_v2 main_c
  let main_v4 : FVec F S256x128x3 .f32 := Host.absf main_arg1
  let main_cst_0 : FVec F S_ .f32 := constant S_ .f32 0x7F800000#32
  let main_v5 : FVec F S256x128x3 .f32 := broadcastInDim S256x128x3 ![] bcast_S_S256x128x3 main_cst_0
  let main_v6 : IVec S256x128x3 1 := cmpf .olt main_v4 main_v5
  let main_c_1 : IVec S_ 1 := constantI S_ 1 1#1
  let main_v7 : IVec S_ 1 := (fun x v => Host.reduce IntOp.andi x v reducesTo_S256x128x3_S_d0_1_2 h_S_) main_v6 main_c_1
  let main_v8 : IVec S_ 1 := andi main_v3 main_v7
  let main_v9 : FVec F S256x1x1 .f32 := Host.absf main_arg2
  let main_cst_2 : FVec F S_ .f32 := constant S_ .f32 0x7F800000#32
  let main_v10 : FVec F S256x1x1 .f32 := broadcastInDim S256x1x1 ![] bcast_S_S256x1x1 main_cst_2
  let main_v11 : IVec S256x1x1 1 := cmpf .olt main_v9 main_v10
  let main_c_3 : IVec S_ 1 := constantI S_ 1 1#1
  let main_v12 : IVec S_ 1 := (fun x v => Host.reduce IntOp.andi x v reducesTo_S256x1x1_S_d0_1_2 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_v13 main_v16
-- ==== Kernel.lean ====
abbrev S32x128x1024 : Shape := ⟨3, ![32, 128, 1024]⟩
abbrev S256x128x3 : Shape := ⟨3, ![256, 128, 3]⟩
abbrev S256x1x1 : Shape := ⟨3, ![256, 1, 1]⟩
abbrev S256 : Shape := ⟨1, ![256]⟩
abbrev S256x256x3 : Shape := ⟨3, ![256, 256, 3]⟩
abbrev S256x128x1 : Shape := ⟨3, ![256, 128, 1]⟩
abbrev S_ : Shape := ⟨0, ![]⟩
abbrev S3x256x128 : Shape := ⟨3, ![3, 256, 128]⟩
abbrev S3x256x256 : Shape := ⟨3, ![3, 256, 256]⟩
abbrev S256x128 : Shape := ⟨2, ![256, 128]⟩
abbrev S256x1 : Shape := ⟨2, ![256, 1]⟩
abbrev S32x256x1024 : Shape := ⟨3, ![32, 256, 1024]⟩
abbrev S1x128x1024 : Shape := ⟨3, ![1, 128, 1024]⟩
abbrev S1x256x1024 : Shape := ⟨3, ![1, 256, 1024]⟩
abbrev S128x1024 : Shape := ⟨2, ![128, 1024]⟩
abbrev S1x256x128 : Shape := ⟨3, ![1, 256, 128]⟩
abbrev S256x1024 : Shape := ⟨2, ![256, 1024]⟩
abbrev S128x4 : Shape := ⟨2, ![128, 4]⟩
abbrev S128x1020 : Shape := ⟨2, ![128, 1020]⟩
abbrev S128x2 : Shape := ⟨2, ![128, 2]⟩
abbrev S128x1022 : Shape := ⟨2, ![128, 1022]⟩
abbrev S1x256x256 : Shape := ⟨3, ![1, 256, 256]⟩
abbrev S256x256 : Shape := ⟨2, ![256, 256]⟩
abbrev S256x4 : Shape := ⟨2, ![256, 4]⟩
abbrev S256x1020 : Shape := ⟨2, ![256, 1020]⟩
abbrev S256x2 : Shape := ⟨2, ![256, 2]⟩
abbrev S256x1022 : Shape := ⟨2, ![256, 1022]⟩

abbrev nBuf : Space → Nat
  | .hbm => 37
  | .vmem => 10
  | .smem => 0
  | _ => 0

abbrev bufTy : (tb : Table) → Fin (tcTables nBuf tb) → BufTy
  | .hbm, ⟨0, _⟩ => ⟨S32x128x1024, .f32⟩
  | .hbm, ⟨1, _⟩ => ⟨S256x128x3, .f32⟩
  | .hbm, ⟨2, _⟩ => ⟨S256x1x1, .f32⟩
  | .hbm, ⟨3, _⟩ => ⟨S256, .f32⟩
  | .hbm, ⟨4, _⟩ => ⟨S256x256x3, .f32⟩
  | .hbm, ⟨5, _⟩ => ⟨S256x1x1, .f32⟩
  | .hbm, ⟨6, _⟩ => ⟨S256, .f32⟩
  | .hbm, ⟨7, _⟩ => ⟨S256x128x1, .f32⟩
  | .hbm, ⟨8, _⟩ => ⟨S256, .f32⟩
  | .hbm, ⟨9, _⟩ => ⟨S256x128x3, .f32⟩
  | .hbm, ⟨10, _⟩ => ⟨S_, .f32⟩
  | .hbm, ⟨11, _⟩ => ⟨S256, .f32⟩
  | .hbm, ⟨12, _⟩ => ⟨S256x1x1, .f32⟩
  | .hbm, ⟨13, _⟩ => ⟨S256x1x1, .f32⟩
  | .hbm, ⟨14, _⟩ => ⟨S256x128x3, .f32⟩
  | .hbm, ⟨15, _⟩ => ⟨S256x128x3, .f32⟩
  | .hbm, ⟨16, _⟩ => ⟨S256x128x3, .f32⟩
  | .hbm, ⟨17, _⟩ => ⟨S256x128x3, .f32⟩
  | .hbm, ⟨18, _⟩ => ⟨S3x256x128, .f32⟩
  | .hbm, ⟨19, _⟩ => ⟨S3x256x128, .bf16⟩
  | .hbm, ⟨20, _⟩ => ⟨S256x256x3, .f32⟩
  | .hbm, ⟨21, _⟩ => ⟨S_, .f32⟩
  | .hbm, ⟨22, _⟩ => ⟨S256, .f32⟩
  | .hbm, ⟨23, _⟩ => ⟨S256x1x1, .f32⟩
  | .hbm, ⟨24, _⟩ => ⟨S256x1x1, .f32⟩
  | .hbm, ⟨25, _⟩ => ⟨S256x256x3, .f32⟩
  | .hbm, ⟨26, _⟩ => ⟨S256x256x3, .f32⟩
  | .hbm, ⟨27, _⟩ => ⟨S256x256x3, .f32⟩
  | .hbm, ⟨28, _⟩ => ⟨S256x256x3, .f32⟩
  | .hbm, ⟨29, _⟩ => ⟨S3x256x256, .f32⟩
  | .hbm, ⟨30, _⟩ => ⟨S3x256x256, .bf16⟩
  | .hbm, ⟨31, _⟩ => ⟨S256x128, .f32⟩
  | .hbm, ⟨32, _⟩ => ⟨S256x128, .bf16⟩
  | .hbm, ⟨33, _⟩ => ⟨S256x1, .f32⟩
  | .hbm, ⟨34, _⟩ => ⟨S256x1, .f32⟩
  | .hbm, ⟨35, _⟩ => ⟨S256x1, .f32⟩
  | .hbm, ⟨36, _⟩ => ⟨S32x256x1024, .f32⟩
  | .local _ .vmem, ⟨0, _⟩ => ⟨S1x128x1024, .f32⟩
  | .local _ .vmem, ⟨1, _⟩ => ⟨S1x128x1024, .f32⟩
  | .local _ .vmem, ⟨2, _⟩ => ⟨S3x256x128, .bf16⟩
  | .local _ .vmem, ⟨3, _⟩ => ⟨S256x1, .f32⟩
  | .local _ .vmem, ⟨4, _⟩ => ⟨S3x256x256, .bf16⟩
  | .local _ .vmem, ⟨5, _⟩ => ⟨S256x128, .bf16⟩
  | .local _ .vmem, ⟨6, _⟩ => ⟨S256x1, .f32⟩
  | .local _ .vmem, ⟨7, _⟩ => ⟨S256x1, .f32⟩
  | .local _ .vmem, ⟨8, _⟩ => ⟨S1x256x1024, .f32⟩
  | .local _ .vmem, ⟨9, _⟩ => ⟨S1x256x1024, .f32⟩
  | _, _ => ⟨S32x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S256x128x3_S256_d1_2 : S256x128x3.ReducesTo [1, 2] S256
  h_S_ : 0 < S_.numel
  bcast_S256_S256x1x1_0 : S256.BroadcastsInDim S256x1x1 (![0] : Fin 1 → Fin S256x1x1.rank)
  bcast_S256x1x1_S256x128x3_0_1_2 : S256x1x1.BroadcastsInDim S256x128x3 (![0, 1, 2] : Fin 3 → Fin S256x128x3.rank)
  transposes_S256x128x3_S3x256x128_2_0_1 : S256x128x3.Transposes [2, 0, 1] S3x256x128
  bitsLt_bf16_f32 : FTy.bits .bf16 < FTy.bits .f32
  reducesTo_S256x256x3_S256_d1_2 : S256x256x3.ReducesTo [1, 2] S256
  bcast_S256x1x1_S256x256x3_0_1_2 : S256x1x1.BroadcastsInDim S256x256x3 (![0, 1, 2] : Fin 3 → Fin S256x256x3.rank)
  transposes_S256x256x3_S3x256x256_2_0_1 : S256x256x3.Transposes [2, 0, 1] S3x256x256
  shapeCasts_S256x128x1_S256x128 : S256x128x1.ShapeCasts S256x128
  shapeCasts_S256_S256x1 : S256.ShapeCasts S256x1
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S3x256x128_S1x256x128_2_0_0 : ∀ a, (![2, 0, 0] : Fin 3 → Nat) a + S1x256x128.size a ≤ S3x256x128.size a
  h_S1x256x128 : 0 < S1x256x128.numel
  shapeCasts_S1x256x128_S256x128 : S1x256x128.ShapeCasts S256x128
  inb_S3x256x128_S1x256x128_0_0_0 : ∀ a, (![0, 0, 0] : Fin 3 → Nat) a + S1x256x128.size a ≤ S3x256x128.size a
  slices_S128x1024_o0_0_S128x1020 : S128x1024.Slices ![0, 0] S128x1020
  concatenates_S128x4_S128x1020_S128x1024_d1 : Shape.Concatenates [S128x4, S128x1020] S128x1024 1
  inb_S3x256x128_S1x256x128_1_0_0 : ∀ a, (![1, 0, 0] : Fin 3 → Nat) a + S1x256x128.size a ≤ S3x256x128.size a
  slices_S128x1024_o0_0_S128x1022 : S128x1024.Slices ![0, 0] S128x1022
  concatenates_S128x2_S128x1022_S128x1024_d1 : Shape.Concatenates [S128x2, S128x1022] S128x1024 1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  inb_S3x256x256_S1x256x256_2_0_0 : ∀ a, (![2, 0, 0] : Fin 3 → Nat) a + S1x256x256.size a ≤ S3x256x256.size a
  h_S1x256x256 : 0 < S1x256x256.numel
  shapeCasts_S1x256x256_S256x256 : S1x256x256.ShapeCasts S256x256
  inb_S3x256x256_S1x256x256_0_0_0 : ∀ a, (![0, 0, 0] : Fin 3 → Nat) a + S1x256x256.size a ≤ S3x256x256.size a
  slices_S256x1024_o0_0_S256x1020 : S256x1024.Slices ![0, 0] S256x1020
  concatenates_S256x4_S256x1020_S256x1024_d1 : Shape.Concatenates [S256x4, S256x1020] S256x1024 1
  inb_S3x256x256_S1x256x256_1_0_0 : ∀ a, (![1, 0, 0] : Fin 3 → Nat) a + S1x256x256.size a ≤ S3x256x256.size a
  slices_S256x1024_o0_0_S256x1022 : S256x1024.Slices ![0, 0] S256x1022
  concatenates_S256x2_S256x1022_S256x1024_d1 : Shape.Concatenates [S256x2, S256x1022] S256x1024 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x128_S128x1024_S256x1024_1_0_0_1_n_n_wf : DotDims.WF S256x128 S128x1024 S256x1024 [1] [0] [0] [1] [] []
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S32x128x1024.size a
  hwx0_0 : ∀ i : grid0.Coords, EltTy.bits .f32 = 32 ∨ (Rect.block (s := S32x128x1024) S1x128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256x128.size a ≤ S3x256x128.size a
  hwx0_1 : ∀ i : grid0.Coords, EltTy.bits .bf16 = 32 ∨ (Rect.block (s := S3x256x128) S3x256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256x256.size a ≤ S3x256x256.size a
  hwx0_3 : ∀ i : grid0.Coords, EltTy.bits .bf16 = 32 ∨ (Rect.block (s := S3x256x256) S3x256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .bf16 = 32 ∨ (Rect.block (s := S256x128) S256x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S256x1.size a
  hwx0_5 : ∀ i : grid0.Coords, EltTy.bits .f32 = 32 ∨ (Rect.block (s := S256x1) S256x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S32x256x1024.size a
  hwx0_7 : ∀ i : grid0.Coords, EltTy.bits .f32 = 32 ∨ (Rect.block (s := S32x256x1024) S1x256x1024.size (cc0_transform_7 i) (hinb0_7 i)).WholeWords (EltTy.packing .f32)

variable [Facts₀]

def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_arg0) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S3x256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S3x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S256x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x128x1024 : Shape := ⟨3, ![32, 128, 1024]⟩
abbrev S256x128x3 : Shape := ⟨3, ![256, 128, 3]⟩
abbrev S256x1x1 : Shape := ⟨3, ![256, 1, 1]⟩
abbrev S256 : Shape := ⟨1, ![256]⟩
abbrev S256x256x3 : Shape := ⟨3, ![256, 256, 3]⟩
abbrev S256x128x1 : Shape := ⟨3, ![256, 128, 1]⟩
abbrev S_ : Shape := ⟨0, ![]⟩
abbrev S32x128x1028 : Shape := ⟨3, ![32, 128, 1028]⟩
abbrev S3x256x128 : Shape := ⟨3, ![3, 256, 128]⟩
abbrev S256x1 : Shape := ⟨2, ![256, 1]⟩
abbrev S32x256x1024 : Shape := ⟨3, ![32, 256, 1024]⟩
abbrev S1x128x1028 : Shape := ⟨3, ![1, 128, 1028]⟩
abbrev S1x256x1024 : Shape := ⟨3, ![1, 256, 1024]⟩
abbrev S256x1024 : Shape := ⟨2, ![256, 1024]⟩
abbrev S1x128x1024 : Shape := ⟨3, ![1, 128, 1024]⟩
abbrev S128x1024 : Shape := ⟨2, ![128, 1024]⟩
abbrev S1x256x128 : Shape := ⟨3, ![1, 256, 128]⟩
abbrev S256x128 : Shape := ⟨2, ![256, 128]⟩
abbrev S32x256x1028 : Shape := ⟨3, ![32, 256, 1028]⟩
abbrev S3x256x256 : Shape := ⟨3, ![3, 256, 256]⟩
abbrev S1x256x1028 : Shape := ⟨3, ![1, 256, 1028]⟩
abbrev S1x256x256 : Shape := ⟨3, ![1, 256, 256]⟩
abbrev S256x256 : Shape := ⟨2, ![256, 256]⟩

abbrev nBuf : Space → Nat
  | .hbm => 41
  | .vmem => 16
  | .smem => 0
  | _ => 0

abbrev bufTy : (tb : Table) → Fin (tcTables nBuf tb) → BufTy
  | .hbm, ⟨0, _⟩ => ⟨S32x128x1024, .f32⟩
  | .hbm, ⟨1, _⟩ => ⟨S256x128x3, .f32⟩
  | .hbm, ⟨2, _⟩ => ⟨S256x1x1, .f32⟩
  | .hbm, ⟨3, _⟩ => ⟨S256, .f32⟩
  | .hbm, ⟨4, _⟩ => ⟨S256x256x3, .f32⟩
  | .hbm, ⟨5, _⟩ => ⟨S256x1x1, .f32⟩
  | .hbm, ⟨6, _⟩ => ⟨S256, .f32⟩
  | .hbm, ⟨7, _⟩ => ⟨S256x128x1, .f32⟩
  | .hbm, ⟨8, _⟩ => ⟨S256, .f32⟩
  | .hbm, ⟨9, _⟩ => ⟨S256x128x3, .f32⟩
  | .hbm, ⟨10, _⟩ => ⟨S_, .f32⟩
  | .hbm, ⟨11, _⟩ => ⟨S256, .f32⟩
  | .hbm, ⟨12, _⟩ => ⟨S256x1x1, .f32⟩
  | .hbm, ⟨13, _⟩ => ⟨S256x1x1, .f32⟩
  | .hbm, ⟨14, _⟩ => ⟨S256x128x3, .f32⟩
  | .hbm, ⟨15, _⟩ => ⟨S256x128x3, .f32⟩
  | .hbm, ⟨16, _⟩ => ⟨S256x128x3, .f32⟩
  | .hbm, ⟨17, _⟩ => ⟨S256x128x3, .f32⟩
  | .hbm, ⟨18, _⟩ => ⟨S256x256x3, .f32⟩
  | .hbm, ⟨19, _⟩ => ⟨S_, .f32⟩
  | .hbm, ⟨20, _⟩ => ⟨S256, .f32⟩
  | .hbm, ⟨21, _⟩ => ⟨S256x1x1, .f32⟩
  | .hbm, ⟨22, _⟩ => ⟨S256x1x1, .f32⟩
  | .hbm, ⟨23, _⟩ => ⟨S256x256x3, .f32⟩
  | .hbm, ⟨24, _⟩ => ⟨S256x256x3, .f32⟩
  | .hbm, ⟨25, _⟩ => ⟨S256x256x3, .f32⟩
  | .hbm, ⟨26, _⟩ => ⟨S256x256x3, .f32⟩
  | .hbm, ⟨27, _⟩ => ⟨S_, .i32⟩
  | .hbm, ⟨28, _⟩ => ⟨S_, .f32⟩
  | .hbm, ⟨29, _⟩ => ⟨S32x128x1028, .f32⟩
  | .hbm, ⟨30, _⟩ => ⟨S3x256x128, .f32⟩
  | .hbm, ⟨31, _⟩ => ⟨S256x1, .f32⟩
  | .hbm, ⟨32, _⟩ => ⟨S32x256x1024, .f32⟩
  | .hbm, ⟨33, _⟩ => ⟨S_, .i32⟩
  | .hbm, ⟨34, _⟩ => ⟨S_, .f32⟩
  | .hbm, ⟨35, _⟩ => ⟨S32x256x1028, .f32⟩
  | .hbm, ⟨36, _⟩ => ⟨S3x256x256, .f32⟩
  | .hbm, ⟨37, _⟩ => ⟨S256x1, .f32⟩
  | .hbm, ⟨38, _⟩ => ⟨S256x128, .f32⟩
  | .hbm, ⟨39, _⟩ => ⟨S256x1, .f32⟩
  | .hbm, ⟨40, _⟩ => ⟨S32x256x1024, .f32⟩
  | .local _ .vmem, ⟨0, _⟩ => ⟨S1x128x1028, .f32⟩
  | .local _ .vmem, ⟨1, _⟩ => ⟨S1x128x1028, .f32⟩
  | .local _ .vmem, ⟨2, _⟩ => ⟨S3x256x128, .f32⟩
  | .local _ .vmem, ⟨3, _⟩ => ⟨S256x1, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1028, .f32⟩
  | .local _ .vmem, ⟨7, _⟩ => ⟨S1x256x1028, .f32⟩
  | .local _ .vmem, ⟨8, _⟩ => ⟨S3x256x256, .f32⟩
  | .local _ .vmem, ⟨9, _⟩ => ⟨S256x1, .f32⟩
  | .local _ .vmem, ⟨10, _⟩ => ⟨S1x128x1024, .f32⟩
  | .local _ .vmem, ⟨11, _⟩ => ⟨S1x128x1024, .f32⟩
  | .local _ .vmem, ⟨12, _⟩ => ⟨S256x128, .f32⟩
  | .local _ .vmem, ⟨13, _⟩ => ⟨S256x1, .f32⟩
  | .local _ .vmem, ⟨14, _⟩ => ⟨S1x256x1024, .f32⟩
  | .local _ .vmem, ⟨15, _⟩ => ⟨S1x256x1024, .f32⟩
  | _, _ => ⟨S32x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_call1_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x1028 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x128x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  reducesTo_S256x128x3_S256_d1_2 : S256x128x3.ReducesTo [1, 2] S256
  h_S_ : 0 < S_.numel
  bcast_S256_S256x1x1_0 : S256.BroadcastsInDim S256x1x1 (![0] : Fin 1 → Fin S256x1x1.rank)
  bcast_S256x1x1_S256x128x3_0_1_2 : S256x1x1.BroadcastsInDim S256x128x3 (![0, 1, 2] : Fin 3 → Fin S256x128x3.rank)
  reducesTo_S256x256x3_S256_d1_2 : S256x256x3.ReducesTo [1, 2] S256
  bcast_S256x1x1_S256x256x3_0_1_2 : S256x1x1.BroadcastsInDim S256x256x3 (![0, 1, 2] : Fin 3 → Fin S256x256x3.rank)
  pads_S32x128x1024_S32x128x1028_000_000_400 : S32x128x1024.Pads (![0, 0, 4] : Fin 3 → Nat) ![0, 0, 0] ![0, 0, 0] S32x128x1028
  transposes_S256x128x3_S3x256x128_2_0_1 : S256x128x3.Transposes [2, 0, 1] S3x256x128
  shapeCasts_S256_S256x1 : S256.ShapeCasts S256x1
  inb_S1x128x1028_S1x128x1024_0_0_0 : ∀ a, (![0, 0, 0] : Fin 3 → Nat) a + S1x128x1024.size a ≤ S1x128x1028.size a
  h_S1x128x1024 : 0 < S1x128x1024.numel
  shapeCasts_S1x128x1024_S128x1024 : S1x128x1024.ShapeCasts S128x1024
  inb_S3x256x128_S1x256x128_0_0_0 : ∀ a, (![0, 0, 0] : Fin 3 → Nat) a + S1x256x128.size a ≤ S3x256x128.size a
  h_S1x256x128 : 0 < S1x256x128.numel
  shapeCasts_S1x256x128_S256x128 : S1x256x128.ShapeCasts S256x128
  inb_S1x128x1028_S1x128x1024_0_0_2 : ∀ a, (![0, 0, 2] : Fin 3 → Nat) a + S1x128x1024.size a ≤ S1x128x1028.size a
  inb_S3x256x128_S1x256x128_1_0_0 : ∀ a, (![1, 0, 0] : Fin 3 → Nat) a + S1x256x128.size a ≤ S3x256x128.size a
  inb_S1x128x1028_S1x128x1024_0_0_4 : ∀ a, (![0, 0, 4] : Fin 3 → Nat) a + S1x128x1024.size a ≤ S1x128x1028.size a
  inb_S3x256x128_S1x256x128_2_0_0 : ∀ a, (![2, 0, 0] : Fin 3 → Nat) a + S1x256x128.size a ≤ S3x256x128.size a
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  pads_S32x256x1024_S32x256x1028_000_000_400 : S32x256x1024.Pads (![0, 0, 4] : Fin 3 → Nat) ![0, 0, 0] ![0, 0, 0] S32x256x1028
  transposes_S256x256x3_S3x256x256_2_0_1 : S256x256x3.Transposes [2, 0, 1] S3x256x256
  shapeCasts_S256x128x1_S256x128 : S256x128x1.ShapeCasts S256x128
  inb_S1x256x1028_S1x256x1024_0_0_0 : ∀ a, (![0, 0, 0] : Fin 3 → Nat) a + S1x256x1024.size a ≤ S1x256x1028.size a
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S1x256x1028_S1x256x1024_0_0_2 : ∀ a, (![0, 0, 2] : Fin 3 → Nat) a + S1x256x1024.size a ≤ S1x256x1028.size a
  inb_S3x256x256_S1x256x256_1_0_0 : ∀ a, (![1, 0, 0] : Fin 3 → Nat) a + S1x256x256.size a ≤ S3x256x256.size a
  inb_S1x256x1028_S1x256x1024_0_0_4 : ∀ a, (![0, 0, 4] : Fin 3 → Nat) a + S1x256x1024.size a ≤ S1x256x1028.size a
  inb_S3x256x256_S1x256x256_2_0_0 : ∀ a, (![2, 0, 0] : Fin 3 → Nat) a + S1x256x256.size a ≤ S3x256x256.size a
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128x1024_S1x128x1024_0_0_0 : ∀ a, (![0, 0, 0] : Fin 3 → Nat) a + S1x128x1024.size a ≤ S1x128x1024.size a
  dot_S256x128_S128x1024_S256x1024_1_0_0_1_n_n_wf : DotDims.WF S256x128 S128x1024 S256x1024 [1] [0] [0] [1] [] []
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1028.size a ≤ S32x128x1028.size a
  hwx0_0 : ∀ i : grid0.Coords, EltTy.bits .f32 = 32 ∨ (Rect.block (s := S32x128x1028) S1x128x1028.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256x128.size a ≤ S3x256x128.size a
  hwx0_1 : ∀ i : grid0.Coords, EltTy.bits .f32 = 32 ∨ (Rect.block (s := S3x256x128) S3x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S32x256x1024.size a
  hwx0_3 : ∀ i : grid0.Coords, EltTy.bits .f32 = 32 ∨ (Rect.block (s := S32x256x1024) S1x256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1028.size a ≤ S32x256x1028.size a
  hwx1_0 : ∀ i : grid1.Coords, EltTy.bits .f32 = 32 ∨ (Rect.block (s := S32x256x1028) S1x256x1028.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x256x256.size a ≤ S3x256x256.size a
  hwx1_1 : ∀ i : grid1.Coords, EltTy.bits .f32 = 32 ∨ (Rect.block (s := S3x256x256) S3x256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S256x1.size a
  hwx1_2 : ∀ i : grid1.Coords, EltTy.bits .f32 = 32 ∨ (Rect.block (s := S256x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x1024.size a ≤ S32x128x1024.size a
  hwx1_3 : ∀ i : grid1.Coords, EltTy.bits .f32 = 32 ∨ (Rect.block (s := S32x128x1024) S1x128x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S256x1.size a
  hwx1_5 : ∀ i : grid1.Coords, EltTy.bits .f32 = 32 ∨ (Rect.block (s := S256x1) S256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S32x256x1024.size a
  hwx1_6 : ∀ i : grid1.Coords, EltTy.bits .f32 = 32 ∨ (Rect.block (s := S32x256x1024) S1x256x1024.size (cc1_transform_6 i) (hinb1_6 i)).WholeWords (EltTy.packing .f32)

variable [Facts₀]

def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_v16) S1x128x1028.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S3x256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S1x256x1028.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S3x256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S256x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x128x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S256x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== Proof.Spec.lean ====
/-
  The temporal block as mathematics, over the extended reals and free of any program text.

  A causal dilated convolution with three taps and dilation two sends a [C, 1024] signal `a` to
  `∑_k W_k · (a delayed by 4 − 2k columns)`, the first columns of a delayed signal being zero. The block is
  `relu (relu (conv₂ (relu (conv₁ x + b₁)) + b₂) + W_d x + b_d)`. Two spellings of it are stated here: one adds the
  undelayed tap first and the residual product before its bias, the other starts the tap sum from zero, adds the taps in
  order of decreasing delay, reads the delayed signal out of a left-padded copy, and adds the residual product to its bias
  first. Addition of extended reals is commutative and associative and `0` is neutral, which is all that separates them.
-/
import Idealize.ShloMosaic.PureOps.Ideal
import Idealize.ShloMosaic.Lib.ValueIdx

noncomputable section

open scoped BigOperators

namespace Cert.Tcn

open Idealize.ShloMosaic Idealize.ShloMosaic.ValueIdx

/-- The signal `a` delayed by `s` columns: column `t` holds column `t − s`, the first `s` columns hold zero. -/
def delay {C : ℕ} (s : ℕ) (a : Fin C → Fin 1024 → EReal) (c : Fin C) (t : Fin 1024) : EReal :=
  if h : s ≤ t.val then a c ⟨t.val - s, by have := t.isLt; omega⟩ else 0

/-- The signal with four zero columns in front: 1028 columns. -/
def padded {C : ℕ} (a : Fin C → Fin 1024 → EReal) (c : Fin C) (j : Fin 1028) : EReal :=
  if h : 4 ≤ j.val then a c ⟨j.val - 4, by have := j.isLt; omega⟩ else 0

/-- Column `t + 4` of the padded signal is column `t` of the signal. -/
theorem padded_add4 {C : ℕ} (a : Fin C → Fin 1024 → EReal) (c : Fin C) (t : Fin 1024) (j : Fin 1028)
    (hj : j.val = t.val + 4) : padded a c j = a c t := by
  unfold padded
  rw [dif_pos (by omega)]
  exact congrArg (a c) (Fin.ext (by simp only []; omega))

/-- Column `t + 2` of the padded signal is the signal delayed by two. -/
theorem padded_add2 {C : ℕ} (a : Fin C → Fin 1024 → EReal) (c : Fin C) (t : Fin 1024) (j : Fin 1028)
    (hj : j.val = t.val + 2) : padded a c j = delay 2 a c t := by
  unfold padded delay
  by_cases h : 2 ≤ t.val
  · rw [dif_pos (by omega), dif_pos h]
    exact congrArg (a c) (Fin.ext (by simp only []; omega))
  · rw [dif_neg (by omega), dif_neg h]

/-- Column `t` of the padded signal is the signal delayed by four. -/
theorem padded_add0 {C : ℕ} (a : Fin C → Fin 1024 → EReal) (c : Fin C) (t : Fin 1024) (j : Fin 1028)
    (hj : j.val = t.val) : padded a c j = delay 4 a c t := by
  unfold padded delay
  by_cases h : 4 ≤ t.val
  · rw [dif_pos (by omega), dif_pos h]
    exact congrArg (a c) (Fin.ext (by simp only []; omega))
  · rw [dif_neg (by omega), dif_neg h]

/-- One tap: a [256, C] matrix applied to the columns of a signal. -/
def tap {C : ℕ} (w : Fin 256 → Fin C → EReal) (a : Fin C → Fin 1024 → EReal) (o : Fin 256) (t : Fin 1024) : EReal :=
  ∑ c : Fin C, w o c * a c t

/-- `relu (conv + bias)`, the undelayed tap first. -/
def convRelu {C : ℕ} (w : Fin 3 → Fin 256 → Fin C → EReal) (b : Fin 256 → EReal) (a : Fin C → Fin 1024 → EReal)
    (o : Fin 256) (t : Fin 1024) : EReal :=
  max (tap (w 2) a o t + tap (w 0) (delay 4 a) o t + tap (w 1) (delay 2 a) o t + b o) 0

/-- The same from a zero start, the taps in order of decreasing delay. -/
def convReluRef {C : ℕ} (w : Fin 3 → Fin 256 → Fin C → EReal) (b : Fin 256 → EReal) (a : Fin C → Fin 1024 → EReal)
    (o : Fin 256) (t : Fin 1024) : EReal :=
  max (0 + tap (w 0) (delay 4 a) o t + tap (w 1) (delay 2 a) o t + tap (w 2) a o t + b o) 0

theorem convReluRef_eq {C : ℕ} (w : Fin 3 → Fin 256 → Fin C → EReal) (b : Fin 256 → EReal) (a : Fin C → Fin 1024 → EReal)
    (o : Fin 256) (t : Fin 1024) : convReluRef w b a o t = convRelu w b a o t := by
  unfold convReluRef convRelu
  rw [zero_add]
  refine congrArg (fun z => max (z + b o) 0) ?_
  rw [add_comm (tap (w 0) (delay 4 a) o t + tap (w 1) (delay 2 a) o t) (tap (w 2) a o t), ← add_assoc]

/-- The second half of the block from the first half's result `h` and the input `x`: the residual product added before
    its bias. -/
def outOf (w2 : Fin 3 → Fin 256 → Fin 256 → EReal) (b2 : Fin 256 → EReal) (wd : Fin 256 → Fin 128 → EReal)
    (bd : Fin 256 → EReal) (h : Fin 256 → Fin 1024 → EReal) (x : Fin 128 → Fin 1024 → EReal) (o : Fin 256) (t : Fin 1024) : EReal :=
  max (convRelu w2 b2 h o t + tap wd x o t + bd o) 0

/-- The same with the residual product added to its bias first. -/
def outOfRef (w2 : Fin 3 → Fin 256 → Fin 256 → EReal) (b2 : Fin 256 → EReal) (wd : Fin 256 → Fin 128 → EReal)
    (bd : Fin 256 → EReal) (h : Fin 256 → Fin 1024 → EReal) (x : Fin 128 → Fin 1024 → EReal) (o : Fin 256) (t : Fin 1024) : EReal :=
  max (convReluRef w2 b2 h o t + (tap wd x o t + bd o)) 0

theorem outOfRef_eq (w2 : Fin 3 → Fin 256 → Fin 256 → EReal) (b2 : Fin 256 → EReal) (wd : Fin 256 → Fin 128 → EReal)
    (bd : Fin 256 → EReal) (h : Fin 256 → Fin 1024 → EReal) (x : Fin 128 → Fin 1024 → EReal) (o : Fin 256) (t : Fin 1024) :
    outOfRef w2 b2 wd bd h x o t = outOf w2 b2 wd bd h x o t := by
  unfold outOfRef outOf
  rw [convReluRef_eq, add_assoc]

/-- The whole block on one [128, 1024] input. -/
def block (w1 : Fin 3 → Fin 256 → Fin 128 → EReal) (b1 : Fin 256 → EReal) (w2 : Fin 3 → Fin 256 → Fin 256 → EReal)
    (b2 : Fin 256 → EReal) (wd : Fin 256 → Fin 128 → EReal) (bd : Fin 256 → EReal) (x : Fin 128 → Fin 1024 → EReal)
    (o : Fin 256) (t : Fin 1024) : EReal :=
  outOf w2 b2 wd bd (convRelu w1 b1 x) x o t

/-! ## The arrays -/

abbrev SX : Shape := ⟨3, ![32, 128, 1024]⟩
abbrev SH : Shape := ⟨3, ![32, 256, 1024]⟩
abbrev SW1 : Shape := ⟨3, ![3, 256, 128]⟩
abbrev SW2 : Shape := ⟨3, ![3, 256, 256]⟩
abbrev SWd : Shape := ⟨2, ![256, 128]⟩
abbrev SB : Shape := ⟨2, ![256, 1]⟩

/-- A [3, 256, C] array as three [256, C] matrices. -/
abbrev taps {C : ℕ} (w : (⟨3, ![3, 256, C]⟩ : Shape).Idx → EReal) : Fin 3 → Fin 256 → Fin C → EReal := fun k o c => w (ix3 k o c)
/-- A [256, 1] column as a function of the row. -/
abbrev col (b : SB.Idx → EReal) : Fin 256 → EReal := fun o => b (ix2 o (0 : Fin 1))
/-- A [256, 128] array as a matrix. -/
abbrev mat (w : SWd.Idx → EReal) : Fin 256 → Fin 128 → EReal := fun o c => w (ix2 o c)
/-- Member `n` of a stack of [C, 1024] signals. -/
abbrev member {C : ℕ} (x : (⟨3, ![32, C, 1024]⟩ : Shape).Idx → EReal) (n : Fin 32) : Fin C → Fin 1024 → EReal := fun c t => x (ix3 n c t)

/-- The first half's result for every member of the batch. -/
def H1 (x : SX.Idx → EReal) (w1 : SW1.Idx → EReal) (b1 : SB.Idx → EReal) : SH.Idx → EReal :=
  fun i => convRelu (taps w1) (col b1) (member x (i 0)) (i 1) (i 2)

/-- The second half's result from the first half's array `h`. -/
def Out (h : SH.Idx → EReal) (x : SX.Idx → EReal) (w2 : SW2.Idx → EReal) (b2 : SB.Idx → EReal) (wd : SWd.Idx → EReal)
    (bd : SB.Idx → EReal) : SH.Idx → EReal :=
  fun i => outOf (taps w2) (col b2) (mat wd) (col bd) (member h (i 0)) (member x (i 0)) (i 1) (i 2)

/-- The block's result for every member of the batch. -/
def G (x : SX.Idx → EReal) (w1 : SW1.Idx → EReal) (b1 : SB.Idx → EReal) (w2 : SW2.Idx → EReal) (b2 : SB.Idx → EReal)
    (wd : SWd.Idx → EReal) (bd : SB.Idx → EReal) : SH.Idx → EReal :=
  fun i => block (taps w1) (col b1) (taps w2) (col b2) (mat wd) (col bd) (member x (i 0)) (i 1) (i 2)

/-- The two halves composed are the block. -/
theorem Out_H1 (x : SX.Idx → EReal) (w1 : SW1.Idx → EReal) (b1 : SB.Idx → EReal) (w2 : SW2.Idx → EReal) (b2 : SB.Idx → EReal)
    (wd : SWd.Idx → EReal) (bd : SB.Idx → EReal) : Out (H1 x w1 b1) x w2 b2 wd bd = G x w1 b1 w2 b2 wd bd := rfl

end Cert.Tcn

end
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.KernelBody.lean ====
import proofs.«141046_g2000506556625611_pallasbulk_77_8_alg».proof.Proof.Gen.KernelIdeal.Value
import proofs.«141046_g2000506556625611_pallasbulk_77_8_alg».proof.Proof.Spec
import proofs.«141046_g2000506556625611_pallasbulk_77_8_alg».proof.Proof.LibMatmulAt
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.TcCoe Idealize.ShloMosaic.ValueIdx

/-- The bf16 zero word denotes zero. -/
theorem zero_bf16 : (Scalar.ofBits .bf16 0x0000#16 : Ideal .bf16) = 0 := by
  show Ideal.ofBits .bf16 0x0000#16 = 0
  simp [Ideal.ofBits, Ideal.ieee]

/-- The f32 zero word denotes zero. -/
theorem zero_f32 : (Scalar.ofBits .f32 0x00000000#32 : Ideal .f32) = 0 := Ideal.ofBits_zero_f32

/-- A zero block of `s` columns in front of the first `m` columns of a signal is the signal delayed by `s`. -/
theorem shift_apply {R s m : ℕ} (hm : s + m = 1024) (a : FVec Ideal ⟨2, ![R, 1024]⟩ .bf16)
    (hsl : (⟨2, ![R, 1024]⟩ : Shape).Slices ![0, 0] ⟨2, ![R, m]⟩)
    (hc : Shape.Concatenates [⟨2, ![R, s]⟩, ⟨2, ![R, m]⟩] ⟨2, ![R, 1024]⟩ 1) (c : Fin R) (t : Fin 1024) :
    concatenate ⟨2, ![R, 1024]⟩ 1
        [⟨⟨2, ![R, s]⟩, broadcast ⟨2, ![R, s]⟩ (Scalar.ofBits .bf16 0x0000#16 : Ideal .bf16)⟩,
         ⟨⟨2, ![R, m]⟩, extractStridedSlice ⟨2, ![R, m]⟩ ![0, 0] a hsl⟩] hc (ix2 c t)
      = Cert.Tcn.delay s (fun c t => a (ix2 c t)) c t := by
  unfold Cert.Tcn.delay
  by_cases h : s ≤ t.val
  · rw [dif_pos h]
    have hlt : t.val - s < m := by have := t.isLt; omega
    refine (concatenate_pair_apply_right (t := ⟨2, ![R, 1024]⟩) (s₁ := ⟨2, ![R, s]⟩) (s₂ := ⟨2, ![R, m]⟩) (1 : Fin 2) _ _ hc (ix2 c t) rfl rfl
      (ix2 c (⟨t.val - s, hlt⟩ : Fin m)) ?_ ?_).trans ?_
    · intro b hb
      match b with
      | ⟨0, _⟩ => rfl
      | ⟨1, _⟩ => exact absurd rfl hb
    · show (t.val - s) + s = t.val
      omega
    · exact slice2_axis1_apply 0 a hsl c ⟨t.val - s, hlt⟩ ⟨t.val - s, _⟩ (Nat.zero_add _).symm
  · rw [dif_neg h]
    have hlt : t.val < s := by omega
    refine (concatenate_pair_apply_left (t := ⟨2, ![R, 1024]⟩) (s₁ := ⟨2, ![R, s]⟩) (s₂ := ⟨2, ![R, m]⟩) (1 : Fin 2) _ _ hc (ix2 c t) rfl
      (ix2 c (⟨t.val, hlt⟩ : Fin s)) ?_).trans ?_
    · intro b
      match b with
      | ⟨0, _⟩ => rfl
      | ⟨1, _⟩ => rfl
    · exact zero_bf16

/-- The input block flattened and narrowed, at an entry. -/
theorem pay2_apply (v0 : Vec Ideal S1x128x1024 .f32) (c : Fin 128) (t : Fin 1024) :
    k0_pay2 (F := Ideal) v0 (ix2 c t) = v0 (ix3 (0 : Fin 1) c t) := by
  unfold k0_pay2
  exact shapeCast_1ab_ab_apply v0 _ c t

/-- A bias column spread over the 1024 columns, at an entry. -/
theorem bias_apply (v : FVec Ideal S256x1 .f32) (hs : S256x1.ShapeCasts S256x1) (hb : S256x1.Broadcasts S256x1024)
    (o : Fin 256) (t : Fin 1024) :
    broadcastTo S256x1024 (shapeCast S256x1 v hs) hb (ix2 o t) = v (ix2 o (0 : Fin 1)) := by
  rw [shapeCast_self]
  refine broadcastTo_apply v hb (ix2 o t) (ix2 o (0 : Fin 1)) fun a => ?_
  match a with
  | ⟨0, _⟩ =>
    show o.val = if (256 : ℕ) = 1 then 0 else o.val
    exact (if_neg (by decide)).symm
  | ⟨1, _⟩ =>
    show 0 = if (1 : ℕ) = 1 then 0 else t.val
    exact (if_pos rfl).symm

/-- A product `[256, K] · [K, 1024]` into a zero accumulator, at an entry, is a tap. -/
theorem mm_apply {K : ℕ} (D : DotDims ⟨2, ![256, K]⟩ ⟨2, ![K, 1024]⟩ ⟨2, ![256, 1024]⟩)
    (hlc : D.lhsContracting = [1]) (hrc : D.rhsContracting = [0]) (hlb : D.lhsBatch = []) (hrb : D.rhsBatch = [])
    (hln : D.lhsNonContracting = [0]) (hrn : D.rhsNonContracting = [1])
    (A : FVec Ideal ⟨2, ![256, K]⟩ .bf16) (B : FVec Ideal ⟨2, ![K, 1024]⟩ .bf16)
    (w : Fin 256 → Fin K → EReal) (a : Fin K → Fin 1024 → EReal)
    (hw : ∀ o c, A (ix2 o c) = w o c) (ha : ∀ c t, B (ix2 c t) = a c t) (o : Fin 256) (t : Fin 1024) :
    matmul D none A B (constant (F := Ideal) ⟨2, ![256, 1024]⟩ .f32 0x00000000#32) (ix2 o t) = Cert.Tcn.tap w a o t := by
  refine (Cert.LibMatmulAt.matmul_zero_at D hlc hrc hlb hrb hln hrn none A B o t).trans ?_
  unfold Cert.Tcn.tap
  exact Finset.sum_congr rfl fun c _ => by rw [hw, ha]

/-- The first half: `relu (conv + bias)` of the input block, narrowed, at an entry. -/
theorem pay3_apply (v0 : Vec Ideal S1x128x1024 .f32) (v3 v6 v13 : Vec Ideal S1x256x128 .bf16) (v20 : Vec Ideal S256x1 .f32)
    (o : Fin 256) (t : Fin 1024) :
    k0_pay3 (F := Ideal) v0 v3 v6 v13 v20 (ix2 o t)
      = max (Cert.Tcn.tap (fun o c => v3 (ix3 (0 : Fin 1) o c)) (fun c t => v0 (ix3 (0 : Fin 1) c t)) o t
          + Cert.Tcn.tap (fun o c => v6 (ix3 (0 : Fin 1) o c)) (Cert.Tcn.delay 4 fun c t => v0 (ix3 (0 : Fin 1) c t)) o t
          + Cert.Tcn.tap (fun o c => v13 (ix3 (0 : Fin 1) o c)) (Cert.Tcn.delay 2 fun c t => v0 (ix3 (0 : Fin 1) c t)) o t
          + v20 (ix2 o (0 : Fin 1))) 0 := by
  have hx : (fun c t => k0_pay2 (F := Ideal) v0 (ix2 c t)) = fun c t => v0 (ix3 (0 : Fin 1) c t) :=
    funext fun c => funext fun t => pay2_apply v0 c t
  unfold k0_pay3
  simp only [truncf_apply, maximumf_apply, addf_apply, broadcast_apply]
  refine congrArg₂ max (congrArg₂ (· + ·) (congrArg₂ (· + ·) (congrArg₂ (· + ·) ?_ ?_) ?_) ?_) zero_f32
  · exact mm_apply _ rfl rfl rfl rfl rfl rfl _ _ _ _ (fun o c => shapeCast_1ab_ab_apply v3 _ o c) (fun c t => pay2_apply v0 c t) o t
  · refine mm_apply _ rfl rfl rfl rfl rfl rfl _ _ _ _ (fun o c => shapeCast_1ab_ab_apply v6 _ o c) (fun c t => ?_) o t
    refine (shift_apply (s := 4) (m := 1020) rfl (k0_pay2 v0) _ _ c t).trans ?_
    rw [hx]
  · refine mm_apply _ rfl rfl rfl rfl rfl rfl _ _ _ _ (fun o c => shapeCast_1ab_ab_apply v13 _ o c) (fun c t => ?_) o t
    refine (shift_apply (s := 2) (m := 1022) rfl (k0_pay2 v0) _ _ c t).trans ?_
    rw [hx]
  · exact bias_apply v20 _ _ o t

/-- The undelayed tap of the second convolution applied to the first half's result, at an entry. -/
theorem pay4_apply (v0 : Vec Ideal S1x128x1024 .f32) (v3 v6 v13 : Vec Ideal S1x256x128 .bf16) (v20 : Vec Ideal S256x1 .f32)
    (v27 : Vec Ideal S1x256x256 .bf16) (o : Fin 256) (t : Fin 1024) :
    k0_pay4 (F := Ideal) v0 v3 v6 v13 v20 v27 (ix2 o t)
      = Cert.Tcn.tap (fun o c => v27 (ix3 (0 : Fin 1) o c)) (fun c t => k0_pay3 (F := Ideal) v0 v3 v6 v13 v20 (ix2 c t)) o t := by
  unfold k0_pay4
  exact mm_apply _ rfl rfl rfl rfl rfl rfl _ _ _ _ (fun o c => shapeCast_1ab_ab_apply v27 _ o c) (fun c t => rfl) o t

/-- A matrix of the second stack flattened, at an entry. -/
theorem pay5_apply (v30 : Vec Ideal S1x256x256 .bf16) (o : Fin 256) (c : Fin 256) :
    k0_pay5 (F := Ideal) v30 (ix2 o c) = v30 (ix3 (0 : Fin 1) o c) := by
  unfold k0_pay5
  exact shapeCast_1ab_ab_apply v30 _ o c

/-- The second half from the first half's result `v26`, its undelayed tap `v29` and the narrowed input `v2`, at an entry. -/
theorem pay1_apply (v2 : FVec Ideal S128x1024 .bf16) (v26 : FVec Ideal S256x1024 .bf16) (v29 : FVec Ideal S256x1024 .f32)
    (v31 : FVec Ideal S256x256 .bf16) (v37 : Vec Ideal S1x256x256 .bf16) (v44 : Vec Ideal S256x1 .f32)
    (v50 : Vec Ideal S256x128 .bf16) (v54 : Vec Ideal S256x1 .f32) (u : Fin 1) (o : Fin 256) (t : Fin 1024) :
    k0_pay1 (F := Ideal) v2 v26 v29 v31 v37 v44 v50 v54 (ix3 u o t)
      = max (max (v29 (ix2 o t)
              + Cert.Tcn.tap (fun o c => v31 (ix2 o c)) (Cert.Tcn.delay 4 fun c t => v26 (ix2 c t)) o t
              + Cert.Tcn.tap (fun o c => v37 (ix3 (0 : Fin 1) o c)) (Cert.Tcn.delay 2 fun c t => v26 (ix2 c t)) o t
              + v44 (ix2 o (0 : Fin 1))) 0
          + Cert.Tcn.tap (fun o c => v50 (ix2 o c)) (fun c t => v2 (ix2 c t)) o t
          + v54 (ix2 o (0 : Fin 1))) 0 := by
  unfold k0_pay1
  refine (shapeCast_ab_1ab_apply _ _ u o t).trans ?_
  simp only [maximumf_apply, addf_apply, broadcast_apply]
  refine congrArg₂ max (congrArg₂ (· + ·) (congrArg₂ (· + ·) (congrArg₂ max
    (congrArg₂ (· + ·) (congrArg₂ (· + ·) (congrArg₂ (· + ·) rfl ?_) ?_) ?_) zero_f32) ?_) ?_) zero_f32
  · exact mm_apply _ rfl rfl rfl rfl rfl rfl _ _ _ _ (fun o c => rfl)
      (fun c t => shift_apply (s := 4) (m := 1020) rfl v26 _ _ c t) o t
  · exact mm_apply _ rfl rfl rfl rfl rfl rfl _ _ _ _ (fun o c => shapeCast_1ab_ab_apply v37 _ o c)
      (fun c t => shift_apply (s := 2) (m := 1022) rfl v26 _ _ c t) o t
  · exact bias_apply v44 _ _ o t
  · refine mm_apply _ rfl rfl rfl rfl rfl rfl _ _ _ _ (fun o c => ?_) (fun c t => rfl) o t
    rw [shapeCast_self]
  · exact bias_apply v54 _ _ o t

/-- One matrix of a stack of three read through its rectangle: entry `(0, o, c)` of the rectangle is entry `(k, o, c)`
    of the stack. -/
theorem ld_tap {C : ℕ} (x : Vec Ideal ⟨3, ![3, 256, C]⟩ .bf16) (k : ℕ) (hk : k < 3)
    (inb : ∀ a, (![k, 0, 0] : Fin 3 → ℕ) a + (⟨3, ![1, 256, C]⟩ : Shape).size a ≤ (⟨3, ![3, 256, C]⟩ : Shape).size a)
    (o : Fin 256) (c : Fin C) :
    View.ld (Val := Elt Ideal) (e' := EltTy.bf16) x (Rect.unit (s := ⟨3, ![3, 256, C]⟩) ![k, 0, 0] (⟨3, ![1, 256, C]⟩ : Shape).size inb) (ix3 (0 : Fin 1) o c)
      = x (ix3 (⟨k, hk⟩ : Fin 3) o c) := by
  refine congrArg x (funext fun a => Fin.ext ?_)
  match a with
  | ⟨0, _⟩ => show k + 1 * 0 = k; omega
  | ⟨1, _⟩ => show 0 + 1 * o.val = o.val; omega
  | ⟨2, _⟩ => show 0 + 1 * c.val = c.val; omega

/-- What the fused body stores, entry by entry: the block of the specification on the loaded input block. -/
theorem out_apply (x0 : FVec Ideal S1x128x1024 .f32) (x1 : FVec Ideal S3x256x128 .bf16) (x2 : FVec Ideal S256x1 .f32)
    (x3 : FVec Ideal S3x256x256 .bf16) (x4 : FVec Ideal S256x128 .bf16) (x5 : FVec Ideal S256x1 .f32) (x6 : FVec Ideal S256x1 .f32)
    (u : Fin 1) (o : Fin 256) (t : Fin 1024) :
    out0_7 (F := Ideal) x0 x1 x2 x3 x4 x5 x6 (ix3 u o t)
      = Cert.Tcn.block (Cert.Tcn.taps x1) (Cert.Tcn.col x2) (Cert.Tcn.taps x3) (Cert.Tcn.col x5) (Cert.Tcn.mat x4) (Cert.Tcn.col x6)
          (fun c t => x0 (ix3 (0 : Fin 1) c t)) o t := by
  have hz : (![0, 0, 0] : Fin 3 → ℕ) = fun _ => 0 := funext fun a => by fin_cases a <;> rfl
  have hz2 : (![0, 0] : Fin 2 → ℕ) = fun _ => 0 := funext fun a => by fin_cases a <;> rfl
  -- the whole-buffer loads read the contents
  have e0 : View.ld (Val := Elt Ideal) (e' := EltTy.f32) x0 r0_0 = x0 := View.ld_unit_zero (Val := Elt Ideal) (S := S1x128x1024) (e := EltTy.f32) hz _ x0
  have e2 : View.ld (Val := Elt Ideal) (e' := EltTy.f32) x2 r0_4 = x2 := View.ld_unit_zero (Val := Elt Ideal) (S := S256x1) (e := EltTy.f32) hz2 _ x2
  have e5 : View.ld (Val := Elt Ideal) (e' := EltTy.f32) x5 r0_4 = x5 := View.ld_unit_zero (Val := Elt Ideal) (S := S256x1) (e := EltTy.f32) hz2 _ x5
  have e6 : View.ld (Val := Elt Ideal) (e' := EltTy.f32) x6 r0_4 = x6 := View.ld_unit_zero (Val := Elt Ideal) (S := S256x1) (e := EltTy.f32) hz2 _ x6
  have e4 : View.ld (Val := Elt Ideal) (e' := EltTy.bf16) x4 r0_8 = x4 := View.ld_unit_zero (Val := Elt Ideal) (S := S256x128) (e := EltTy.bf16) hz2 _ x4
  -- the three matrices of each stack
  have w12 : (fun o c => View.ld (Val := Elt Ideal) (e' := EltTy.bf16) x1 r0_1 (ix3 (0 : Fin 1) o c)) = Cert.Tcn.taps x1 2 :=
    funext fun o => funext fun c => ld_tap x1 2 (by decide) _ o c
  have w10 : (fun o c => View.ld (Val := Elt Ideal) (e' := EltTy.bf16) x1 r0_2 (ix3 (0 : Fin 1) o c)) = Cert.Tcn.taps x1 0 :=
    funext fun o => funext fun c => ld_tap x1 0 (by decide) _ o c
  have w11 : (fun o c => View.ld (Val := Elt Ideal) (e' := EltTy.bf16) x1 r0_3 (ix3 (0 : Fin 1) o c)) = Cert.Tcn.taps x1 1 :=
    funext fun o => funext fun c => ld_tap x1 1 (by decide) _ o c
  have w22 : (fun o c => View.ld (Val := Elt Ideal) (e' := EltTy.bf16) x3 r0_5 (ix3 (0 : Fin 1) o c)) = Cert.Tcn.taps x3 2 :=
    funext fun o => funext fun c => ld_tap x3 2 (by decide) _ o c
  have w20 : (fun o c => k0_pay5 (F := Ideal) (View.ld (Val := Elt Ideal) (e' := EltTy.bf16) x3 r0_6) (ix2 o c)) = Cert.Tcn.taps x3 0 :=
    funext fun o => funext fun c => (pay5_apply _ o c).trans (ld_tap x3 0 (by decide) _ o c)
  have w21 : (fun o c => View.ld (Val := Elt Ideal) (e' := EltTy.bf16) x3 r0_7 (ix3 (0 : Fin 1) o c)) = Cert.Tcn.taps x3 1 :=
    funext fun o => funext fun c => ld_tap x3 1 (by decide) _ o c
  -- the narrowed input block and the first half's result, as signals
  have hX : (fun c t => k0_pay2 (F := Ideal) x0 (ix2 c t)) = fun c t => x0 (ix3 (0 : Fin 1) c t) :=
    funext fun c => funext fun t => pay2_apply x0 c t
  have hH : (fun c t => k0_pay3 (F := Ideal) x0 (View.ld x1 r0_1) (View.ld x1 r0_2) (View.ld x1 r0_3) x2 (ix2 c t))
      = Cert.Tcn.convRelu (Cert.Tcn.taps x1) (Cert.Tcn.col x2) (fun c t => x0 (ix3 (0 : Fin 1) c t)) := by
    funext c t
    refine (pay3_apply x0 _ _ _ x2 c t).trans ?_
    rw [w12, w10, w11]
    rfl
  unfold out0_7
  rw [View.canon_unit_zero hz, e0, e2, e5, e6, e4]
  refine (pay1_apply _ _ _ _ _ _ _ _ u o t).trans ?_
  rw [pay4_apply, hH, hX, w22, w20, w21]
  rfl

end Cert.KernelIdeal.Body

end
-- ==== Proof.KernelWhole.lean ====
import proofs.«141046_g2000506556625611_pallasbulk_77_8_alg».proof.Proof.Gen.KernelIdeal.Value
import proofs.«141046_g2000506556625611_pallasbulk_77_8_alg».proof.Proof.Spec
import proofs.«141046_g2000506556625611_pallasbulk_77_8_alg».proof.Proof.KernelBody
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The block-index maps over the 32 grid points: the two windows over the batch (the input signal and the result)
    sit at block `t` on the batch axis and at block 0 on the other two; every weight and bias window sits at block 0 on
    every axis. -/
theorem index_facts : ∀ t : Fin cfg0.N,
    win0_7.index t (0 : Fin 3) = t.val ∧ win0_7.index t (1 : Fin 3) = 0 ∧ win0_7.index t (2 : Fin 3) = 0
    ∧ win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Entry `(u, k, s)` of the input signal's block at point `t` is entry `(t, k, s)` of the signal array. -/
theorem signal_read (c : Dev nD) (t : Fin cfg0.N) (ht : t.val < 32) (u : Fin 1) (k : Fin 128) (s : Fin 1024) :
    (iblk m c 0 t : FVec Ideal S1x128x1024 .f32) (ix3 u k s)
      = (V m c main_arg0 : Cert.Tcn.SX.Idx → EReal) (ix3 (⟨t.val, ht⟩ : Fin 32) k s) := by
  obtain ⟨-, -, -, e0, e1, e2, -⟩ := index_facts t
  show V m c main_arg0 (((cfg0.win 0).blk t).view.emb (ix3 u k s)) = V m c main_arg0 (ix3 (⟨t.val, ht⟩ : Fin 32) k s)
  refine congrArg _ (funext fun a => Fin.ext ?_)
  match a with
  | ⟨0, _⟩ => show win0_0.index t (0 : Fin 3) * 1 + 1 * u.val = t.val; have := u.isLt; omega
  | ⟨1, _⟩ => show win0_0.index t (1 : Fin 3) * 128 + 1 * k.val = k.val; omega
  | ⟨2, _⟩ => show win0_0.index t (2 : Fin 3) * 1024 + 1 * s.val = s.val; omega

/-- Entry `(k, o, j)` of the first weights' block at any point is that entry of the weights' array. -/
theorem w1_read (c : Dev nD) (t : Fin cfg0.N) (k : Fin 3) (o : Fin 256) (j : Fin 128) :
    (iblk m c 1 t : FVec Ideal S3x256x128 .bf16) (ix3 k o j) = (V m c main_v9 : Cert.Tcn.SW1.Idx → EReal) (ix3 k o j) := by
  obtain ⟨-, -, -, -, -, -, e0, e1, e2, -⟩ := index_facts t
  show V m c main_v9 (((cfg0.win 1).blk t).view.emb (ix3 k o j)) = V m c main_v9 (ix3 k o j)
  refine congrArg _ (funext fun a => Fin.ext ?_)
  match a with
  | ⟨0, _⟩ => show win0_1.index t (0 : Fin 3) * 3 + 1 * k.val = k.val; omega
  | ⟨1, _⟩ => show win0_1.index t (1 : Fin 3) * 256 + 1 * o.val = o.val; omega
  | ⟨2, _⟩ => show win0_1.index t (2 : Fin 3) * 128 + 1 * j.val = j.val; omega

/-- Entry `(o, z)` of the first bias' block at any point is that entry of the bias' array. -/
theorem b1_read (c : Dev nD) (t : Fin cfg0.N) (o : Fin 256) (z : Fin 1) :
    (iblk m c 2 t : FVec Ideal S256x1 .f32) (ix2 o z) = (V m c main_v22 : Cert.Tcn.SB.Idx → EReal) (ix2 o z) := by
  obtain ⟨-, -, -, -, -, -, -, -, -, e0, e1, -⟩ := index_facts t
  show V m c main_v22 (((cfg0.win 2).blk t).view.emb (ix2 o z)) = V m c main_v22 (ix2 o z)
  refine congrArg _ (funext fun a => Fin.ext ?_)
  match a with
  | ⟨0, _⟩ => show win0_2.index t (0 : Fin 2) * 256 + 1 * o.val = o.val; omega
  | ⟨1, _⟩ => show win0_2.index t (1 : Fin 2) * 1 + 1 * z.val = z.val; omega

/-- Entry `(k, o, j)` of the second weights' block at any point is that entry of the weights' array. -/
theorem w2_read (c : Dev nD) (t : Fin cfg0.N) (k : Fin 3) (o : Fin 256) (j : Fin 256) :
    (iblk m c 3 t : FVec Ideal S3x256x256 .bf16) (ix3 k o j) = (V m c main_v19 : Cert.Tcn.SW2.Idx → EReal) (ix3 k o j) := by
  obtain ⟨-, -, -, -, -, -, -, -, -, -, -, e0, e1, e2, -⟩ := index_facts t
  show V m c main_v19 (((cfg0.win 3).blk t).view.emb (ix3 k o j)) = V m c main_v19 (ix3 k o j)
  refine congrArg _ (funext fun a => Fin.ext ?_)
  match a with
  | ⟨0, _⟩ => show win0_3.index t (0 : Fin 3) * 3 + 1 * k.val = k.val; omega
  | ⟨1, _⟩ => show win0_3.index t (1 : Fin 3) * 256 + 1 * o.val = o.val; omega
  | ⟨2, _⟩ => show win0_3.index t (2 : Fin 3) * 256 + 1 * j.val = j.val; omega

/-- Entry `(o, j)` of the residual weights' block at any point is that entry of their array. -/
theorem wd_read (c : Dev nD) (t : Fin cfg0.N) (o : Fin 256) (j : Fin 128) :
    (iblk m c 4 t : FVec Ideal S256x128 .bf16) (ix2 o j) = (V m c main_v21 : Cert.Tcn.SWd.Idx → EReal) (ix2 o j) := by
  obtain ⟨-, -, -, -, -, -, -, -, -, -, -, -, -, -, e0, e1, -⟩ := index_facts t
  show V m c main_v21 (((cfg0.win 4).blk t).view.emb (ix2 o j)) = V m c main_v21 (ix2 o j)
  refine congrArg _ (funext fun a => Fin.ext ?_)
  match a with
  | ⟨0, _⟩ => show win0_4.index t (0 : Fin 2) * 256 + 1 * o.val = o.val; omega
  | ⟨1, _⟩ => show win0_4.index t (1 : Fin 2) * 128 + 1 * j.val = j.val; omega

/-- Entry `(o, z)` of the second bias' block at any point is that entry of the bias' array. -/
theorem b2_read (c : Dev nD) (t : Fin cfg0.N) (o : Fin 256) (z : Fin 1) :
    (iblk m c 5 t : FVec Ideal S256x1 .f32) (ix2 o z) = (V m c main_v23 : Cert.Tcn.SB.Idx → EReal) (ix2 o z) := by
  obtain ⟨-, -, -, -, -, -, -, -, -, -, -, -, -, -, -, -, e0, e1, -⟩ := index_facts t
  show V m c main_v23 (((cfg0.win 5).blk t).view.emb (ix2 o z)) = V m c main_v23 (ix2 o z)
  refine congrArg _ (funext fun a => Fin.ext ?_)
  match a with
  | ⟨0, _⟩ => show win0_5.index t (0 : Fin 2) * 256 + 1 * o.val = o.val; omega
  | ⟨1, _⟩ => show win0_5.index t (1 : Fin 2) * 1 + 1 * z.val = z.val; omega

/-- Entry `(o, z)` of the residual bias' block at any point is that entry of the bias' array. -/
theorem bd_read (c : Dev nD) (t : Fin cfg0.N) (o : Fin 256) (z : Fin 1) :
    (iblk m c 6 t : FVec Ideal S256x1 .f32) (ix2 o z) = (V m c main_v24 : Cert.Tcn.SB.Idx → EReal) (ix2 o z) := by
  obtain ⟨-, -, -, -, -, -, -, -, -, -, -, -, -, -, -, -, -, -, e0, e1⟩ := index_facts t
  show V m c main_v24 (((cfg0.win 6).blk t).view.emb (ix2 o z)) = V m c main_v24 (ix2 o z)
  refine congrArg _ (funext fun a => Fin.ext ?_)
  match a with
  | ⟨0, _⟩ => show win0_6.index t (0 : Fin 2) * 256 + 1 * o.val = o.val; omega
  | ⟨1, _⟩ => show win0_6.index t (1 : Fin 2) * 1 + 1 * z.val = z.val; omega

/-- Entry `(u, o, s)` of the result's block at point `t` sits at entry `(t, o, s)` of the result array. -/
theorem result_emb (t : Fin cfg0.N) (ht : t.val < 32) (u : Fin 1) (o : Fin 256) (s : Fin 1024) :
    ((cfg0.win 7).blk t).view.emb (ix3 u o s) = (ix3 (⟨t.val, ht⟩ : Fin 32) o s : Cert.Tcn.SH.Idx) := by
  obtain ⟨e0, e1, e2, -⟩ := index_facts t
  refine funext fun a => Fin.ext ?_
  match a with
  | ⟨0, _⟩ => show win0_7.index t (0 : Fin 3) * 1 + 1 * u.val = t.val; have := u.isLt; omega
  | ⟨1, _⟩ => show win0_7.index t (1 : Fin 3) * 256 + 1 * o.val = o.val; omega
  | ⟨2, _⟩ => show win0_7.index t (2 : Fin 3) * 1024 + 1 * s.val = s.val; omega

/-- The block of the specification depends on its seven arguments only. -/
theorem block_congr {w1 w1' : Fin 3 → Fin 256 → Fin 128 → EReal} {b1 b1' : Fin 256 → EReal}
    {w2 w2' : Fin 3 → Fin 256 → Fin 256 → EReal} {b2 b2' : Fin 256 → EReal} {wd wd' : Fin 256 → Fin 128 → EReal}
    {bd bd' : Fin 256 → EReal} {x x' : Fin 128 → Fin 1024 → EReal} (h1 : w1 = w1') (h2 : b1 = b1') (h3 : w2 = w2')
    (h4 : b2 = b2') (h5 : wd = wd') (h6 : bd = bd') (h7 : x = x') (o : Fin 256) (s : Fin 1024) :
    Cert.Tcn.block w1 b1 w2 b2 wd bd x o s = Cert.Tcn.block w1' b1' w2' b2' wd' bd' x' o s := by
  subst h1 h2 h3 h4 h5 h6 h7; rfl

/-- What point `t` writes back is block `t` of the specification's result for the arrays the region finds. -/
theorem flushed_eq (c : Dev nD) (t : Fin cfg0.N) :
    (dats m 0 c).flushed 7 t
      = ((cfg0.win 7).blk t).view.read (Elt Ideal)
          (Cert.Tcn.G (V m c main_arg0) (V m c main_v9) (V m c main_v22) (V m c main_v19) (V m c main_v23) (V m c main_v21) (V m c main_v24)) := by
  have ht : t.val < 32 := by have h := t.isLt; have hN : cfg0.N = 32 := N_0; omega
  rw [Cert.KernelIdeal.Value.flushed7]
  funext j
  obtain ⟨u, o, s, rfl⟩ : ∃ (u : Fin 1) (o : Fin 256) (s : Fin 1024), j = ix3 u o s := ⟨j 0, j 1, j 2, eq_ix3 j⟩
  show out0_7 (F := Ideal) (iblk m c 0 t) (iblk m c 1 t) (iblk m c 2 t) (iblk m c 3 t) (iblk m c 4 t) (iblk m c 5 t) (iblk m c 6 t) (ix3 u o s)
      = Cert.Tcn.G (V m c main_arg0) (V m c main_v9) (V m c main_v22) (V m c main_v19) (V m c main_v23) (V m c main_v21) (V m c main_v24)
          (((cfg0.win 7).blk t).view.emb (ix3 u o s))
  rw [result_emb t ht u o s]
  refine (Cert.KernelIdeal.Body.out_apply (iblk m c 0 t) (iblk m c 1 t) (iblk m c 2 t) (iblk m c 3 t) (iblk m c 4 t) (iblk m c 5 t) (iblk m c 6 t) u o s).trans ?_
  show _ = Cert.Tcn.block (Cert.Tcn.taps (V m c main_v9)) (Cert.Tcn.col (V m c main_v22)) (Cert.Tcn.taps (V m c main_v19))
      (Cert.Tcn.col (V m c main_v23)) (Cert.Tcn.mat (V m c main_v21)) (Cert.Tcn.col (V m c main_v24))
      (Cert.Tcn.member (V m c main_arg0) (⟨t.val, ht⟩ : Fin 32)) o s
  exact block_congr
    (funext fun k => funext fun o' => funext fun j => w1_read m c t k o' j)
    (funext fun o' => b1_read m c t o' 0)
    (funext fun k => funext fun o' => funext fun j => w2_read m c t k o' j)
    (funext fun o' => b2_read m c t o' 0)
    (funext fun o' => funext fun j => wd_read m c t o' j)
    (funext fun o' => bd_read m c t o' 0)
    (funext fun k => funext fun s' => signal_read m c t ht 0 k s') o s

/-- An index of the result array is in point `t`'s block iff each coordinate is in the block's range on its axis. -/
theorem mem_blk (t : Fin cfg0.N) (i : S32x256x1024.Idx) :
    i ∈ ((cfg0.win 7).blk t).view.set ↔ ∀ a : Fin 3, win0_7.index t a * S1x256x1024.size a ≤ (i a).val
      ∧ (i a).val < win0_7.index t a * S1x256x1024.size a + S1x256x1024.size a := by
  show i ∈ ((View.whole main_v25).slice (win0_7.rect t)).set ↔ _
  rw [View.set_slice_whole, Rect.mem_set_unit]
  exact Iff.rfl

/-- Every index of the result array lies in the block of the point its batch coordinate names. -/
theorem cover (i : S32x256x1024.Idx) :
    ∃ t : Fin cfg0.N, (cfg0.win 7).flush t = true ∧ i ∈ ((cfg0.win 7).blk t).view.set := by
  have hN : cfg0.N = 32 := N_0
  have hi0 : (i 0).val < 32 := (i 0).isLt
  have hi1 : (i 1).val < 256 := (i 1).isLt
  have hi2 : (i 2).val < 1024 := (i 2).isLt
  obtain ⟨t, ht⟩ : ∃ t : Fin cfg0.N, t.val = (i 0).val := ⟨⟨(i 0).val, by omega⟩, rfl⟩
  obtain ⟨e0, e1, e2, -⟩ := index_facts t
  refine ⟨t, flush0_7 t, ?_⟩
  rw [mem_blk]
  intro a
  match a with
  | ⟨0, _⟩ =>
    show win0_7.index t (0 : Fin 3) * 1 ≤ (i 0).val ∧ (i 0).val < win0_7.index t (0 : Fin 3) * 1 + 1
    omega
  | ⟨1, _⟩ =>
    show win0_7.index t (1 : Fin 3) * 256 ≤ (i 1).val ∧ (i 1).val < win0_7.index t (1 : Fin 3) * 256 + 256
    omega
  | ⟨2, _⟩ =>
    show win0_7.index t (2 : Fin 3) * 1024 ≤ (i 2).val ∧ (i 2).val < win0_7.index t (2 : Fin 3) * 1024 + 1024
    omega

/-- The result array after the run is the block of the specification, member by member, of the arrays the region finds. -/
theorem final7 (c : Dev nD) :
    (dats m 0 c).arrAt 7 cfg0.N
      = Cert.Tcn.G (V m c main_arg0) (V m c main_v9) (V m c main_v22) (V m c main_v19) (V m c main_v23) (V m c main_v21) (V m c main_v24) :=
  (dats m 0 c).arrAt_eq_of_cover 7
    (Cert.Tcn.G (V m c main_arg0) (V m c main_v9) (V m c main_v22) (V m c main_v19) (V m c main_v23) (V m c main_v21) (V m c main_v24))
    (fun t _ => flushed_eq m c t) cover

end Cert.KernelIdeal.Whole

end
-- ==== Proof.KernelHost.lean ====
/-
  What the fused kernel's host program hands it, read as mathematics, and the kernel's result array as a function of
  the arguments.

  The host computes the two layers' taps as the transposed quotients `g · v / ‖v‖` and narrows them to bf16, which
  at the ideal values changes nothing; the biases and the residual matrix are reshapes of the arguments; the input
  reaches the kernel as launched.
-/
import proofs.«141046_g2000506556625611_pallasbulk_77_8_alg».proof.Proof.Gen.KernelIdeal.Value
import proofs.«141046_g2000506556625611_pallasbulk_77_8_alg».proof.Proof.Spec
import proofs.«141046_g2000506556625611_pallasbulk_77_8_alg».proof.Proof.KernelWhole
import Idealize.ShloMosaic.Lib.StableHlo.Run
import Idealize.ShloMosaic.Lib.ValueIdx

noncomputable section

namespace Cert.KernelIdeal.HostSide

open Cert.KernelIdeal Cert.KernelIdeal.Gen Idealize.ShloMosaic Idealize.ShloMosaic.TcCoe Idealize.SL.Sem Idealize.ShloMosaic.ValueIdx
open Idealize.ShloMosaic.StableHlo

/-! ## The host's functions of the arguments, at any float instance -/

section AnyInstance
variable {F : FTy → Type} [FloatOps F]

/-- The first layer's taps: `g · v / ‖v‖`, the norm over the input channels and the taps, transposed to [3, 256, 128]. -/
def weights1 (v : FVec F S256x128x3 .f32) (g : FVec F S256x1x1 .f32) : FVec F S3x256x128 .f32 :=
  transpose S3x256x128 [2, 0, 1]
    (Host.divf (mulf (broadcastInDim S256x128x3 ![0, 1, 2] bcast_S256x1x1_S256x128x3_0_1_2 g) v)
      (broadcastInDim S256x128x3 ![0, 1, 2] bcast_S256x1x1_S256x128x3_0_1_2
        (Host.sqrt (broadcastInDim S256x1x1 ![0] bcast_S256_S256x1x1_0
          (Host.reduceAdd (mulf v v) (constant S_ .f32 0x00000000#32) reducesTo_S256x128x3_S256_d1_2 h_S_)))))
    transposes_S256x128x3_S3x256x128_2_0_1

/-- The second layer's taps, likewise, [3, 256, 256]. -/
def weights2 (v : FVec F S256x256x3 .f32) (g : FVec F S256x1x1 .f32) : FVec F S3x256x256 .f32 :=
  transpose S3x256x256 [2, 0, 1]
    (Host.divf (mulf (broadcastInDim S256x256x3 ![0, 1, 2] bcast_S256x1x1_S256x256x3_0_1_2 g) v)
      (broadcastInDim S256x256x3 ![0, 1, 2] bcast_S256x1x1_S256x256x3_0_1_2
        (Host.sqrt (broadcastInDim S256x1x1 ![0] bcast_S256_S256x1x1_0
          (Host.reduceAdd (mulf v v) (constant S_ .f32 0x00000000#32) reducesTo_S256x256x3_S256_d1_2 h_S_)))))
    transposes_S256x256x3_S3x256x256_2_0_1

/-- A bias as a [256, 1] column. -/
def biasCol (b : FVec F S256 .f32) : FVec F S256x1 .f32 := shapeCast S256x1 b shapeCasts_S256_S256x1

/-- The residual 1×1 convolution's weights as a [256, 128] matrix. -/
def residMat (w : FVec F S256x128x1 .f32) : FVec F S256x128 .f32 := shapeCast S256x128 w shapeCasts_S256x128x1_S256x128

end AnyInstance

/-- Narrowing to bf16 is the identity on extended reals. -/
theorem narrow_id {s : Shape} (X : FVec Ideal s .f32) : (truncf .bf16 X bitsLt_bf16_f32 : FVec Ideal s .bf16) = X := rfl

variable (m : (ℓ : Loc nD τ sig) → Buf (Elt Ideal) ℓ) (ρ : Dev nD → PrngReg)

theorem v9_eq (c : Dev nD) : V m c main_v9
    = weights1 (F := Ideal) (m ((c : Thread nD τ).loc main_arg1)) (m ((c : Thread nD τ).loc main_arg2)) := by
  show StableHlo.after hostOps0 (fun b => m (c, b)) (Proc.devRef .tc main_v9) = _
  after_results
  rfl

theorem v19_eq (c : Dev nD) : V m c main_v19
    = weights2 (F := Ideal) (m ((c : Thread nD τ).loc main_arg4)) (m ((c : Thread nD τ).loc main_arg5)) := by
  show StableHlo.after hostOps0 (fun b => m (c, b)) (Proc.devRef .tc main_v19) = _
  after_results
  rfl

theorem v21_eq (c : Dev nD) : V m c main_v21 = residMat (F := Ideal) (m ((c : Thread nD τ).loc main_arg7)) := by
  show StableHlo.after hostOps0 (fun b => m (c, b)) (Proc.devRef .tc main_v21) = _
  after_results
  rfl

theorem v22_eq (c : Dev nD) : V m c main_v22 = biasCol (F := Ideal) (m ((c : Thread nD τ).loc main_arg3)) := by
  show StableHlo.after hostOps0 (fun b => m (c, b)) (Proc.devRef .tc main_v22) = _
  after_results
  rfl

theorem v23_eq (c : Dev nD) : V m c main_v23 = biasCol (F := Ideal) (m ((c : Thread nD τ).loc main_arg6)) := by
  show StableHlo.after hostOps0 (fun b => m (c, b)) (Proc.devRef .tc main_v23) = _
  after_results
  rfl

theorem v24_eq (c : Dev nD) : V m c main_v24 = biasCol (F := Ideal) (m ((c : Thread nD τ).loc main_arg8)) := by
  show StableHlo.after hostOps0 (fun b => m (c, b)) (Proc.devRef .tc main_v24) = _
  after_results
  rfl

/-- After the run the result array is the block of the specification, member by member, of the arguments. -/
theorem result_eq (c : Dev nD) : (dats m 0 c).arrAt 7 cfg0.N
    = Cert.Tcn.G (m ((c : Thread nD τ).loc main_arg0))
        (weights1 (F := Ideal) (m ((c : Thread nD τ).loc main_arg1)) (m ((c : Thread nD τ).loc main_arg2)))
        (biasCol (F := Ideal) (m ((c : Thread nD τ).loc main_arg3)))
        (weights2 (F := Ideal) (m ((c : Thread nD τ).loc main_arg4)) (m ((c : Thread nD τ).loc main_arg5)))
        (biasCol (F := Ideal) (m ((c : Thread nD τ).loc main_arg6)))
        (residMat (F := Ideal) (m ((c : Thread nD τ).loc main_arg7)))
        (biasCol (F := Ideal) (m ((c : Thread nD τ).loc main_arg8))) := by
  rw [Cert.KernelIdeal.Whole.final7 m c, V_main_arg0, v9_eq, v22_eq, v19_eq, v23_eq, v21_eq, v24_eq]

end Cert.KernelIdeal.HostSide

end
-- ==== Proof.RefBody.lean ====
import proofs.«141046_g2000506556625611_pallasbulk_77_8_alg».proof.Proof.Gen.ReferenceIdeal.Frame
import proofs.«141046_g2000506556625611_pallasbulk_77_8_alg».proof.Proof.Spec
import proofs.«141046_g2000506556625611_pallasbulk_77_8_alg».proof.Proof.LibMatmulAt
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.ReferenceIdeal.Body

open Cert.ReferenceIdeal Cert.ReferenceIdeal.Gen Idealize.ShloMosaic Idealize.ShloMosaic.TcCoe Idealize.ShloMosaic.ValueIdx

theorem hz3 : (![0, 0, 0] : Fin 3 → ℕ) = fun _ => 0 := funext fun a => by fin_cases a <;> rfl
theorem hz2 : (![0, 0] : Fin 2 → ℕ) = fun _ => 0 := funext fun a => by fin_cases a <;> rfl

/-! ## The matrix product of a tap and a window, and the bias column, at an entry -/

/-- A tap of a three-tap [256,128] weight applied to a [128,1024] window, both read through a leading unit axis. -/
theorem tapAt128 (W : FVec Ideal S1x256x128 .f32) (X : FVec Ideal S1x128x1024 .f32) (o : Fin 256) (t : Fin 1024) :
    matmul dot_S256x128_S128x1024_S256x1024_1_0_0_1_n_n none (shapeCast S256x128 W shapeCasts_S1x256x128_S256x128)
        (shapeCast S128x1024 X shapeCasts_S1x128x1024_S128x1024) (constant S256x1024 .f32 0x00000000#32) (ix2 o t)
      = ∑ c : Fin 128, W (ix3 (0 : Fin 1) o c) * X (ix3 (0 : Fin 1) c t) := by
  refine (Cert.LibMatmulAt.matmul_zero_at dot_S256x128_S128x1024_S256x1024_1_0_0_1_n_n rfl rfl rfl rfl rfl rfl none _ _ o t).trans ?_
  exact Finset.sum_congr rfl fun c _ =>
    congrArg₂ (· * ·) (shapeCast_1ab_ab_apply W _ o c) (shapeCast_1ab_ab_apply X _ c t)

/-- A [256,1] column broadcast along the columns reads its row's entry. -/
theorem colAt (v : FVec Ideal S256x1 .f32) (o : Fin 256) (t : Fin 1024) :
    broadcastTo S256x1024 (shapeCast S256x1 v shapeCasts_S256x1_S256x1) broadcasts_S256x1_S256x1024 (ix2 o t)
      = v (ix2 o (0 : Fin 1)) := by
  rw [shapeCast_self]
  refine broadcastTo_apply v _ (ix2 o t) (ix2 o (0 : Fin 1)) fun a => ?_
  match a with
  | ⟨0, _⟩ => rfl
  | ⟨1, _⟩ => rfl

/-! ## The first kernel's payload at an entry -/

/-- From a zero start, the three taps on their windows in order, then the bias, then the maximum with zero. -/
theorem pay0_apply (v1 v7 v13 : FVec Ideal S1x128x1024 .f32) (v3 v9 v15 : FVec Ideal S1x256x128 .f32)
    (v19 : FVec Ideal S256x1 .f32) (u : Fin 1) (o : Fin 256) (t : Fin 1024) :
    k0_pay1 (F := Ideal) v1 v3 v7 v9 v13 v15 v19 (ix3 u o t)
      = max (0 + ∑ c : Fin 128, v3 (ix3 (0 : Fin 1) o c) * v1 (ix3 (0 : Fin 1) c t)
              + ∑ c : Fin 128, v9 (ix3 (0 : Fin 1) o c) * v7 (ix3 (0 : Fin 1) c t)
              + ∑ c : Fin 128, v15 (ix3 (0 : Fin 1) o c) * v13 (ix3 (0 : Fin 1) c t)
              + v19 (ix2 o (0 : Fin 1))) 0 := by
  unfold k0_pay1
  refine (shapeCast_ab_1ab_apply _ _ u o t).trans ?_
  rw [maximumf_apply, addf_apply, addf_apply, addf_apply, addf_apply, tapAt128, tapAt128, tapAt128, colAt]
  show max (Ideal.ofBits .f32 0x00000000#32 + _ + _ + _ + _) (Ideal.ofBits .f32 0x00000000#32) = _
  rw [Ideal.ofBits_zero_f32]

/-! ## The first kernel's loads at an entry -/

/-- The window at column offset 0 of a block with four zero columns in front is the signal delayed by four. -/
theorem ld0_0 (x0 : FVec Ideal S1x128x1028 .f32) (a : Fin 128 → Fin 1024 → EReal)
    (hx : ∀ (c : Fin 128) (j : Fin 1028), x0 (ix3 (0 : Fin 1) c j) = Cert.Tcn.padded a c j) (c : Fin 128) (t : Fin 1024) :
    View.ld (Val := Elt Ideal) (e' := .f32) x0 r0_0 (ix3 (0 : Fin 1) c t) = Cert.Tcn.delay 4 a c t := by
  have e : r0_0.idx (ix3 (0 : Fin 1) c t) = ix3 (0 : Fin 1) c (⟨t.val, by omega⟩ : Fin 1028) :=
    funext fun b => Fin.ext (by
      match b with
      | ⟨0, _⟩ => rfl
      | ⟨1, _⟩ => show 0 + 1 * c.val = c.val; omega
      | ⟨2, _⟩ => show 0 + 1 * t.val = t.val; omega)
  show x0 (r0_0.idx (ix3 (0 : Fin 1) c t)) = _
  rw [e, hx]
  exact Cert.Tcn.padded_add0 a c t _ rfl

/-- The window at column offset 2 is the signal delayed by two. -/
theorem ld0_2 (x0 : FVec Ideal S1x128x1028 .f32) (a : Fin 128 → Fin 1024 → EReal)
    (hx : ∀ (c : Fin 128) (j : Fin 1028), x0 (ix3 (0 : Fin 1) c j) = Cert.Tcn.padded a c j) (c : Fin 128) (t : Fin 1024) :
    View.ld (Val := Elt Ideal) (e' := .f32) x0 r0_2 (ix3 (0 : Fin 1) c t) = Cert.Tcn.delay 2 a c t := by
  have e : r0_2.idx (ix3 (0 : Fin 1) c t) = ix3 (0 : Fin 1) c (⟨t.val + 2, by omega⟩ : Fin 1028) :=
    funext fun b => Fin.ext (by
      match b with
      | ⟨0, _⟩ => rfl
      | ⟨1, _⟩ => show 0 + 1 * c.val = c.val; omega
      | ⟨2, _⟩ => show 2 + 1 * t.val = t.val + 2; omega)
  show x0 (r0_2.idx (ix3 (0 : Fin 1) c t)) = _
  rw [e, hx]
  exact Cert.Tcn.padded_add2 a c t _ rfl

/-- The window at column offset 4 is the signal. -/
theorem ld0_4 (x0 : FVec Ideal S1x128x1028 .f32) (a : Fin 128 → Fin 1024 → EReal)
    (hx : ∀ (c : Fin 128) (j : Fin 1028), x0 (ix3 (0 : Fin 1) c j) = Cert.Tcn.padded a c j) (c : Fin 128) (t : Fin 1024) :
    View.ld (Val := Elt Ideal) (e' := .f32) x0 r0_4 (ix3 (0 : Fin 1) c t) = a c t := by
  have e : r0_4.idx (ix3 (0 : Fin 1) c t) = ix3 (0 : Fin 1) c (⟨t.val + 4, by omega⟩ : Fin 1028) :=
    funext fun b => Fin.ext (by
      match b with
      | ⟨0, _⟩ => rfl
      | ⟨1, _⟩ => show 0 + 1 * c.val = c.val; omega
      | ⟨2, _⟩ => show 4 + 1 * t.val = t.val + 4; omega)
  show x0 (r0_4.idx (ix3 (0 : Fin 1) c t)) = _
  rw [e, hx]
  exact Cert.Tcn.padded_add4 a c t _ rfl

/-- Tap 0 of the weights. -/
theorem ldw0_0 (x1 : FVec Ideal S3x256x128 .f32) (o : Fin 256) (c : Fin 128) :
    View.ld (Val := Elt Ideal) (e' := .f32) x1 r0_1 (ix3 (0 : Fin 1) o c) = x1 (ix3 (0 : Fin 3) o c) := by
  show x1 (r0_1.idx (ix3 (0 : Fin 1) o c)) = _
  refine congrArg x1 (funext fun b => Fin.ext ?_)
  match b with
  | ⟨0, _⟩ => rfl
  | ⟨1, _⟩ => show 0 + 1 * o.val = o.val; omega
  | ⟨2, _⟩ => show 0 + 1 * c.val = c.val; omega

/-- Tap 1 of the weights. -/
theorem ldw0_1 (x1 : FVec Ideal S3x256x128 .f32) (o : Fin 256) (c : Fin 128) :
    View.ld (Val := Elt Ideal) (e' := .f32) x1 r0_3 (ix3 (0 : Fin 1) o c) = x1 (ix3 (1 : Fin 3) o c) := by
  show x1 (r0_3.idx (ix3 (0 : Fin 1) o c)) = _
  refine congrArg x1 (funext fun b => Fin.ext ?_)
  match b with
  | ⟨0, _⟩ => rfl
  | ⟨1, _⟩ => show 0 + 1 * o.val = o.val; omega
  | ⟨2, _⟩ => show 0 + 1 * c.val = c.val; omega

/-- Tap 2 of the weights. -/
theorem ldw0_2 (x1 : FVec Ideal S3x256x128 .f32) (o : Fin 256) (c : Fin 128) :
    View.ld (Val := Elt Ideal) (e' := .f32) x1 r0_5 (ix3 (0 : Fin 1) o c) = x1 (ix3 (2 : Fin 3) o c) := by
  show x1 (r0_5.idx (ix3 (0 : Fin 1) o c)) = _
  refine congrArg x1 (funext fun b => Fin.ext ?_)
  match b with
  | ⟨0, _⟩ => rfl
  | ⟨1, _⟩ => show 0 + 1 * o.val = o.val; omega
  | ⟨2, _⟩ => show 0 + 1 * c.val = c.val; omega

/-- What the first kernel's body stores, entry by entry, when its input block is a signal `a` with four zero columns in
    front: the first half of the specification on `a`. -/
theorem out0_apply (x0 : FVec Ideal S1x128x1028 .f32) (x1 : FVec Ideal S3x256x128 .f32) (x2 : FVec Ideal S256x1 .f32)
    (a : Fin 128 → Fin 1024 → EReal)
    (hx : ∀ (c : Fin 128) (j : Fin 1028), x0 (ix3 (0 : Fin 1) c j) = Cert.Tcn.padded a c j)
    (u : Fin 1) (o : Fin 256) (t : Fin 1024) :
    out0_3 (F := Ideal) x0 x1 x2 (ix3 u o t) = Cert.Tcn.convReluRef (Cert.Tcn.taps x1) (Cert.Tcn.col x2) a o t := by
  unfold out0_3
  rw [View.canon_unit_zero hz3]
  refine (pay0_apply _ _ _ _ _ _ _ u o t).trans ?_
  unfold Cert.Tcn.convReluRef Cert.Tcn.tap
  rw [View.ld_unit_zero (S := S256x1) hz2]
  simp only [ld0_0 x0 a hx, ld0_2 x0 a hx, ld0_4 x0 a hx, ldw0_0 x1, ldw0_1 x1, ldw0_2 x1]

/-! ## The second kernel's payloads at an entry -/

/-- A tap of a three-tap [256,256] weight applied to a [256,1024] window, both read through a leading unit axis. -/
theorem tapAt256 (W : FVec Ideal S1x256x256 .f32) (X : FVec Ideal S1x256x1024 .f32) (o : Fin 256) (t : Fin 1024) :
    matmul dot_S256x256_S256x1024_S256x1024_1_0_0_1_n_n none (shapeCast S256x256 W shapeCasts_S1x256x256_S256x256)
        (shapeCast S256x1024 X shapeCasts_S1x256x1024_S256x1024) (constant S256x1024 .f32 0x00000000#32) (ix2 o t)
      = ∑ c : Fin 256, W (ix3 (0 : Fin 1) o c) * X (ix3 (0 : Fin 1) c t) := by
  refine (Cert.LibMatmulAt.matmul_zero_at dot_S256x256_S256x1024_S256x1024_1_0_0_1_n_n rfl rfl rfl rfl rfl rfl none _ _ o t).trans ?_
  exact Finset.sum_congr rfl fun c _ =>
    congrArg₂ (· * ·) (shapeCast_1ab_ab_apply W _ o c) (shapeCast_1ab_ab_apply X _ c t)

/-- The convolution half: from a zero start, the three taps on their windows in order, then the bias, then the maximum
    with zero. -/
theorem pay2_apply (v1 v7 v13 : FVec Ideal S1x256x1024 .f32) (v3 v9 v15 : FVec Ideal S1x256x256 .f32)
    (v19 : FVec Ideal S256x1 .f32) (o : Fin 256) (t : Fin 1024) :
    k1_pay2 (F := Ideal) v1 v3 v7 v9 v13 v15 v19 (ix2 o t)
      = max (0 + ∑ c : Fin 256, v3 (ix3 (0 : Fin 1) o c) * v1 (ix3 (0 : Fin 1) c t)
              + ∑ c : Fin 256, v9 (ix3 (0 : Fin 1) o c) * v7 (ix3 (0 : Fin 1) c t)
              + ∑ c : Fin 256, v15 (ix3 (0 : Fin 1) o c) * v13 (ix3 (0 : Fin 1) c t)
              + v19 (ix2 o (0 : Fin 1))) 0 := by
  unfold k1_pay2
  rw [maximumf_apply, addf_apply, addf_apply, addf_apply, addf_apply, tapAt256, tapAt256, tapAt256, colAt]
  show max (Ideal.ofBits .f32 0x00000000#32 + _ + _ + _ + _) (Ideal.ofBits .f32 0x00000000#32) = _
  rw [Ideal.ofBits_zero_f32]

/-- The residual matrix is read as it is. -/
theorem pay3_eq (v25 : FVec Ideal S256x128 .f32) : k1_pay3 (F := Ideal) v25 = v25 := by
  unfold k1_pay3
  exact shapeCast_self v25 _

/-- The input block read without its leading unit axis. -/
theorem pay4_apply (v27 : FVec Ideal S1x128x1024 .f32) (c : Fin 128) (t : Fin 1024) :
    k1_pay4 (F := Ideal) v27 (ix2 c t) = v27 (ix3 (0 : Fin 1) c t) := by
  unfold k1_pay4
  exact shapeCast_1ab_ab_apply v27 _ c t

/-- The sum half: the convolution half plus (the residual product plus its bias), then the maximum with zero. -/
theorem pay1_apply (v24 : FVec Ideal S256x1024 .f32) (v26 : FVec Ideal S256x128 .f32) (v28 : FVec Ideal S128x1024 .f32)
    (v30 : FVec Ideal S256x1 .f32) (u : Fin 1) (o : Fin 256) (t : Fin 1024) :
    k1_pay1 (F := Ideal) v24 v26 v28 v30 (ix3 u o t)
      = max (v24 (ix2 o t) + (∑ c : Fin 128, v26 (ix2 o c) * v28 (ix2 c t) + v30 (ix2 o (0 : Fin 1)))) 0 := by
  unfold k1_pay1
  refine (shapeCast_ab_1ab_apply _ _ u o t).trans ?_
  rw [maximumf_apply, addf_apply, addf_apply, colAt]
  refine congrArg₂ max (congrArg (v24 (ix2 o t) + ·) (congrArg (· + v30 (ix2 o (0 : Fin 1))) ?_)) Ideal.ofBits_zero_f32
  exact Cert.LibMatmulAt.matmul_zero_at dot_S256x128_S128x1024_S256x1024_1_0_0_1_n_n rfl rfl rfl rfl rfl rfl none v26 v28 o t

/-! ## The second kernel's loads at an entry -/

/-- The window at column offset 0 of a block with four zero columns in front is the signal delayed by four. -/
theorem ld1_0 (x0 : FVec Ideal S1x256x1028 .f32) (a : Fin 256 → Fin 1024 → EReal)
    (hx : ∀ (c : Fin 256) (j : Fin 1028), x0 (ix3 (0 : Fin 1) c j) = Cert.Tcn.padded a c j) (c : Fin 256) (t : Fin 1024) :
    View.ld (Val := Elt Ideal) (e' := .f32) x0 r1_0 (ix3 (0 : Fin 1) c t) = Cert.Tcn.delay 4 a c t := by
  have e : r1_0.idx (ix3 (0 : Fin 1) c t) = ix3 (0 : Fin 1) c (⟨t.val, by omega⟩ : Fin 1028) :=
    funext fun b => Fin.ext (by
      match b with
      | ⟨0, _⟩ => rfl
      | ⟨1, _⟩ => show 0 + 1 * c.val = c.val; omega
      | ⟨2, _⟩ => show 0 + 1 * t.val = t.val; omega)
  show x0 (r1_0.idx (ix3 (0 : Fin 1) c t)) = _
  rw [e, hx]
  exact Cert.Tcn.padded_add0 a c t _ rfl

/-- The window at column offset 2 is the signal delayed by two. -/
theorem ld1_2 (x0 : FVec Ideal S1x256x1028 .f32) (a : Fin 256 → Fin 1024 → EReal)
    (hx : ∀ (c : Fin 256) (j : Fin 1028), x0 (ix3 (0 : Fin 1) c j) = Cert.Tcn.padded a c j) (c : Fin 256) (t : Fin 1024) :
    View.ld (Val := Elt Ideal) (e' := .f32) x0 r1_2 (ix3 (0 : Fin 1) c t) = Cert.Tcn.delay 2 a c t := by
  have e : r1_2.idx (ix3 (0 : Fin 1) c t) = ix3 (0 : Fin 1) c (⟨t.val + 2, by omega⟩ : Fin 1028) :=
    funext fun b => Fin.ext (by
      match b with
      | ⟨0, _⟩ => rfl
      | ⟨1, _⟩ => show 0 + 1 * c.val = c.val; omega
      | ⟨2, _⟩ => show 2 + 1 * t.val = t.val + 2; omega)
  show x0 (r1_2.idx (ix3 (0 : Fin 1) c t)) = _
  rw [e, hx]
  exact Cert.Tcn.padded_add2 a c t _ rfl

/-- The window at column offset 4 is the signal. -/
theorem ld1_4 (x0 : FVec Ideal S1x256x1028 .f32) (a : Fin 256 → Fin 1024 → EReal)
    (hx : ∀ (c : Fin 256) (j : Fin 1028), x0 (ix3 (0 : Fin 1) c j) = Cert.Tcn.padded a c j) (c : Fin 256) (t : Fin 1024) :
    View.ld (Val := Elt Ideal) (e' := .f32) x0 r1_4 (ix3 (0 : Fin 1) c t) = a c t := by
  have e : r1_4.idx (ix3 (0 : Fin 1) c t) = ix3 (0 : Fin 1) c (⟨t.val + 4, by omega⟩ : Fin 1028) :=
    funext fun b => Fin.ext (by
      match b with
      | ⟨0, _⟩ => rfl
      | ⟨1, _⟩ => show 0 + 1 * c.val = c.val; omega
      | ⟨2, _⟩ => show 4 + 1 * t.val = t.val + 4; omega)
  show x0 (r1_4.idx (ix3 (0 : Fin 1) c t)) = _
  rw [e, hx]
  exact Cert.Tcn.padded_add4 a c t _ rfl

/-- Tap 0 of the weights. -/
theorem ldw1_0 (x1 : FVec Ideal S3x256x256 .f32) (o : Fin 256) (c : Fin 256) :
    View.ld (Val := Elt Ideal) (e' := .f32) x1 r1_1 (ix3 (0 : Fin 1) o c) = x1 (ix3 (0 : Fin 3) o c) := by
  show x1 (r1_1.idx (ix3 (0 : Fin 1) o c)) = _
  refine congrArg x1 (funext fun b => Fin.ext ?_)
  match b with
  | ⟨0, _⟩ => rfl
  | ⟨1, _⟩ => show 0 + 1 * o.val = o.val; omega
  | ⟨2, _⟩ => show 0 + 1 * c.val = c.val; omega

/-- Tap 1 of the weights. -/
theorem ldw1_1 (x1 : FVec Ideal S3x256x256 .f32) (o : Fin 256) (c : Fin 256) :
    View.ld (Val := Elt Ideal) (e' := .f32) x1 r1_3 (ix3 (0 : Fin 1) o c) = x1 (ix3 (1 : Fin 3) o c) := by
  show x1 (r1_3.idx (ix3 (0 : Fin 1) o c)) = _
  refine congrArg x1 (funext fun b => Fin.ext ?_)
  match b with
  | ⟨0, _⟩ => rfl
  | ⟨1, _⟩ => show 0 + 1 * o.val = o.val; omega
  | ⟨2, _⟩ => show 0 + 1 * c.val = c.val; omega

/-- Tap 2 of the weights. -/
theorem ldw1_2 (x1 : FVec Ideal S3x256x256 .f32) (o : Fin 256) (c : Fin 256) :
    View.ld (Val := Elt Ideal) (e' := .f32) x1 r1_5 (ix3 (0 : Fin 1) o c) = x1 (ix3 (2 : Fin 3) o c) := by
  show x1 (r1_5.idx (ix3 (0 : Fin 1) o c)) = _
  refine congrArg x1 (funext fun b => Fin.ext ?_)
  match b with
  | ⟨0, _⟩ => rfl
  | ⟨1, _⟩ => show 0 + 1 * o.val = o.val; omega
  | ⟨2, _⟩ => show 0 + 1 * c.val = c.val; omega

/-- What the second kernel's body stores, entry by entry, when its first input block is a signal `h` with four zero
    columns in front: the second half of the specification on `h` and the input block. -/
theorem out1_apply (x0 : FVec Ideal S1x256x1028 .f32) (x1 : FVec Ideal S3x256x256 .f32) (x2 : FVec Ideal S256x1 .f32)
    (x3 : FVec Ideal S1x128x1024 .f32) (x4 : FVec Ideal S256x128 .f32) (x5 : FVec Ideal S256x1 .f32)
    (h : Fin 256 → Fin 1024 → EReal)
    (hx : ∀ (c : Fin 256) (j : Fin 1028), x0 (ix3 (0 : Fin 1) c j) = Cert.Tcn.padded h c j)
    (u : Fin 1) (o : Fin 256) (t : Fin 1024) :
    out1_6 (F := Ideal) x0 x1 x2 x3 x4 x5 (ix3 u o t)
      = Cert.Tcn.outOfRef (Cert.Tcn.taps x1) (Cert.Tcn.col x2) (Cert.Tcn.mat x4) (Cert.Tcn.col x5) h (fun c t => x3 (ix3 (0 : Fin 1) c t)) o t := by
  unfold out1_6
  rw [View.canon_unit_zero hz3, View.ld_unit_zero (Val := Elt Ideal) (S := S256x1) (e := .f32) hz2 _ x2,
    View.ld_unit_zero (Val := Elt Ideal) (S := S256x1) (e := .f32) hz2 _ x5,
    View.ld_unit_zero (Val := Elt Ideal) (S := S256x128) (e := .f32) hz2 _ x4,
    View.ld_unit_zero (Val := Elt Ideal) (S := S1x128x1024) (e := .f32) hz3 _ x3]
  refine (pay1_apply _ _ _ _ u o t).trans ?_
  rw [pay2_apply, pay3_eq]
  unfold Cert.Tcn.outOfRef Cert.Tcn.convReluRef Cert.Tcn.tap
  simp only [pay4_apply, ld1_0 x0 h hx, ld1_2 x0 h hx, ld1_4 x0 h hx, ldw1_0 x1, ldw1_1 x1, ldw1_2 x1]

end Cert.ReferenceIdeal.Body

end
-- ==== Proof.RefWhole.lean ====
import proofs.«141046_g2000506556625611_pallasbulk_77_8_alg».proof.Proof.Gen.ReferenceIdeal.Frame
import proofs.«141046_g2000506556625611_pallasbulk_77_8_alg».proof.Proof.Spec
import proofs.«141046_g2000506556625611_pallasbulk_77_8_alg».proof.Proof.RefBody
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.ReferenceIdeal.Whole

open Cert.ReferenceIdeal Cert.ReferenceIdeal.Gen Idealize.ShloMosaic Idealize.ShloMosaic.TcCoe Idealize.SL.Sem Idealize.ShloMosaic.ValueIdx
open Idealize.ShloMosaic.Pipeline (Dat)

-- the TensorCore's buffer contents when a region is entered, as in the generated frame's two halves
variable (V : (c : Dev nD) → (b : Ref sig .tc) → Buf (Elt Ideal) ((c : Thread nD τ).loc b))

/-! ## The first region -/

/-- The grid's index maps of the first region, decided over its 32 points: the member windows sit at block `t` on the
    batch axis, every other block index is zero. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point of the first region as a member of the batch. -/
abbrev mem0 (t : Fin cfg0.N) : Fin 32 := ⟨t.val, lt_of_lt_of_eq t.isLt N_0⟩

/-- The padded input block at point `t` is member `t` of the staged array. -/
theorem blk0_0 (c : Dev nD) (t : Fin cfg0.N) (u : Fin 1) (cc : Fin 128) (j : Fin 1028) :
    (iblk0 V c 0 t : FVec Ideal S1x128x1028 .f32) (ix3 u cc j) = V c main_v16 (ix3 (mem0 t) cc j) := by
  obtain ⟨e0, e1, e2, -⟩ := idx_facts0 t
  show V c main_v16 (((cfg0.win 0).blk t).view.emb (ix3 u cc j)) = _
  refine congrArg (V c main_v16) (funext fun a => Fin.ext ?_)
  match a with
  | ⟨0, _⟩ => show win0_0.index t 0 * 1 + 1 * (u : ℕ) = t.val; have := u.isLt; omega
  | ⟨1, _⟩ => show win0_0.index t 1 * 128 + 1 * (cc : ℕ) = cc.val; omega
  | ⟨2, _⟩ => show win0_0.index t 2 * 1028 + 1 * (j : ℕ) = j.val; omega

/-- The first convolution's weight block at any point is the whole weight array. -/
theorem blk0_1 (c : Dev nD) (t : Fin cfg0.N) (k : Fin 3) (o : Fin 256) (cc : Fin 128) :
    (iblk0 V c 1 t : FVec Ideal S3x256x128 .f32) (ix3 k o cc) = V c main_v17 (ix3 k o cc) := by
  obtain ⟨-, -, -, e0, e1, e2, -⟩ := idx_facts0 t
  show V c main_v17 (((cfg0.win 1).blk t).view.emb (ix3 k o cc)) = _
  refine congrArg (V c main_v17) (funext fun a => Fin.ext ?_)
  match a with
  | ⟨0, _⟩ => show win0_1.index t 0 * 3 + 1 * (k : ℕ) = k.val; omega
  | ⟨1, _⟩ => show win0_1.index t 1 * 256 + 1 * (o : ℕ) = o.val; omega
  | ⟨2, _⟩ => show win0_1.index t 2 * 128 + 1 * (cc : ℕ) = cc.val; omega

/-- The first convolution's bias block at any point is the whole bias column. -/
theorem blk0_2 (c : Dev nD) (t : Fin cfg0.N) (o : Fin 256) (z : Fin 1) :
    (iblk0 V c 2 t : FVec Ideal S256x1 .f32) (ix2 o z) = V c main_v18 (ix2 o z) := by
  obtain ⟨-, -, -, -, -, -, e0, e1, -⟩ := idx_facts0 t
  show V c main_v18 (((cfg0.win 2).blk t).view.emb (ix2 o z)) = _
  refine congrArg (V c main_v18) (funext fun a => Fin.ext ?_)
  match a with
  | ⟨0, _⟩ => show win0_2.index t 0 * 256 + 1 * (o : ℕ) = o.val; omega
  | ⟨1, _⟩ => show win0_2.index t 1 * 1 + 1 * (z : ℕ) = z.val; omega

/-- What point `t` of the first region writes back is block `t` of the first half of the specification. -/
theorem flushed0 (c : Dev nD) (X : Cert.Tcn.SX.Idx → EReal)
    (hpad : ∀ (n : Fin 32) (cc : Fin 128) (j : Fin 1028), V c main_v16 (ix3 n cc j) = Cert.Tcn.padded (Cert.Tcn.member X n) cc j)
    (t : Fin cfg0.N) :
    (dat0 V c).flushed 3 t = ((cfg0.win 3).blk t).view.read (Elt Ideal) (Cert.Tcn.H1 X (V c main_v17) (V c main_v18)) := by
  show (cfg0.win 3).cut (grid0.coords t) ((dat0 V c).after 3 t) = _
  rw [after0_3]
  funext j
  obtain ⟨u, o, tt, rfl⟩ : ∃ (u : Fin 1) (o : Fin 256) (tt : Fin 1024), j = ix3 u o tt := ⟨j 0, j 1, j 2, eq_ix3 j⟩
  obtain ⟨-, -, -, -, -, -, -, -, e0, e1, e2⟩ := idx_facts0 t
  refine (Cert.ReferenceIdeal.Body.out0_apply (iblk0 V c 0 t) (iblk0 V c 1 t) (iblk0 V c 2 t) (Cert.Tcn.member X (mem0 t))
    (fun cc j => (blk0_0 V c t 0 cc j).trans (hpad (mem0 t) cc j)) u o tt).trans ?_
  refine (Cert.Tcn.convReluRef_eq _ _ _ o tt).trans ?_
  have hw : Cert.Tcn.taps (iblk0 V c 1 t : FVec Ideal S3x256x128 .f32) = Cert.Tcn.taps (V c main_v17) :=
    funext fun k => funext fun o' => funext fun cc => blk0_1 V c t k o' cc
  have hb : Cert.Tcn.col (iblk0 V c 2 t : FVec Ideal S256x1 .f32) = Cert.Tcn.col (V c main_v18) :=
    funext fun o' => blk0_2 V c t o' 0
  have hemb : ((cfg0.win 3).blk t).view.emb (ix3 u o tt) = ix3 (mem0 t) o tt := funext fun a => Fin.ext (by
    match a with
    | ⟨0, _⟩ => show win0_3.index t 0 * 1 + 1 * (u : ℕ) = t.val; have := u.isLt; omega
    | ⟨1, _⟩ => show win0_3.index t 1 * 256 + 1 * (o : ℕ) = o.val; omega
    | ⟨2, _⟩ => show win0_3.index t 2 * 1024 + 1 * (tt : ℕ) = tt.val; omega)
  show _ = Cert.Tcn.H1 X (V c main_v17) (V c main_v18) (((cfg0.win 3).blk t).view.emb (ix3 u o tt))
  rw [hemb, hw, hb]
  rfl

/-- An index of the first region's result array is in point `t`'s block iff each coordinate is in the block's range. -/
theorem mem_blk0 (t : Fin cfg0.N) (i : S32x256x1024.Idx) :
    i ∈ ((cfg0.win 3).blk t).view.set ↔ ∀ a : Fin 3, win0_3.index t a * S1x256x1024.size a ≤ (i a).val ∧ (i a).val < win0_3.index t a * S1x256x1024.size a + S1x256x1024.size a := by
  show i ∈ ((View.whole main_v19).slice (win0_3.rect t)).set ↔ _
  rw [View.set_slice_whole, Rect.mem_set_unit]
  exact Iff.rfl

/-- FIRST REGION. If the array it stages as its input holds `X` with four zero columns in front of every row, its result
    array ends as the first half of the specification of `X`. -/
theorem final0 (c : Dev nD) (X : Cert.Tcn.SX.Idx → EReal)
    (hpad : ∀ (n : Fin 32) (cc : Fin 128) (j : Fin 1028), V c main_v16 (ix3 n cc j) = Cert.Tcn.padded (Cert.Tcn.member X n) cc j) :
    (dat0 V c).arrAt 3 cfg0.N = Cert.Tcn.H1 X (V c main_v17) (V c main_v18) := by
  have hN : cfg0.N = 32 := N_0
  refine (dat0 V c).arrAt_eq_of_cover 3 _ (fun t _ => flushed0 V c X hpad t) fun i => ?_
  have hi0 : (i 0).val < 32 := (i 0).isLt
  have hi1 : (i 1).val < 256 := (i 1).isLt
  have hi2 : (i 2).val < 1024 := (i 2).isLt
  obtain ⟨t, ht⟩ : ∃ t : Fin cfg0.N, t.val = (i 0).val := ⟨⟨(i 0).val, by omega⟩, rfl⟩
  obtain ⟨-, -, -, -, -, -, -, -, e0, e1, e2⟩ := idx_facts0 t
  refine ⟨t, flush0_3 t, ?_⟩
  rw [mem_blk0]
  intro a
  match a with
  | ⟨0, _⟩ => show win0_3.index t 0 * 1 ≤ (i 0).val ∧ (i 0).val < win0_3.index t 0 * 1 + 1; omega
  | ⟨1, _⟩ => show win0_3.index t 1 * 256 ≤ (i 1).val ∧ (i 1).val < win0_3.index t 1 * 256 + 256; omega
  | ⟨2, _⟩ => show win0_3.index t 2 * 1024 ≤ (i 2).val ∧ (i 2).val < win0_3.index t 2 * 1024 + 1024; omega

/-! ## The second region -/

/-- The grid's index maps of the second region, decided over its 32 points: the member windows sit at block `t` on the
    batch axis, every other block index is zero. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val ∧ win1_6.index t (1 : Fin 3) = 0 ∧ win1_6.index t (2 : Fin 3) = 0 :=
  (by decide +kernel : ∀ t : Fin grid1.N, _)

/-- A grid point of the second region as a member of the batch. -/
abbrev mem1 (t : Fin cfg1.N) : Fin 32 := ⟨t.val, lt_of_lt_of_eq t.isLt N_1⟩

/-- The padded first-half block at point `t` is member `t` of the staged array. -/
theorem blk1_0 (c : Dev nD) (t : Fin cfg1.N) (u : Fin 1) (cc : Fin 256) (j : Fin 1028) :
    (iblk1 V c 0 t : FVec Ideal S1x256x1028 .f32) (ix3 u cc j) = V c main_v20 (ix3 (mem1 t) cc j) := by
  obtain ⟨e0, e1, e2, -⟩ := idx_facts1 t
  show V c main_v20 (((cfg1.win 0).blk t).view.emb (ix3 u cc j)) = _
  refine congrArg (V c main_v20) (funext fun a => Fin.ext ?_)
  match a with
  | ⟨0, _⟩ => show win1_0.index t 0 * 1 + 1 * (u : ℕ) = t.val; have := u.isLt; omega
  | ⟨1, _⟩ => show win1_0.index t 1 * 256 + 1 * (cc : ℕ) = cc.val; omega
  | ⟨2, _⟩ => show win1_0.index t 2 * 1028 + 1 * (j : ℕ) = j.val; omega

/-- The second convolution's weight block at any point is the whole weight array. -/
theorem blk1_1 (c : Dev nD) (t : Fin cfg1.N) (k : Fin 3) (o : Fin 256) (cc : Fin 256) :
    (iblk1 V c 1 t : FVec Ideal S3x256x256 .f32) (ix3 k o cc) = V c main_v21 (ix3 k o cc) := by
  obtain ⟨-, -, -, e0, e1, e2, -⟩ := idx_facts1 t
  show V c main_v21 (((cfg1.win 1).blk t).view.emb (ix3 k o cc)) = _
  refine congrArg (V c main_v21) (funext fun a => Fin.ext ?_)
  match a with
  | ⟨0, _⟩ => show win1_1.index t 0 * 3 + 1 * (k : ℕ) = k.val; omega
  | ⟨1, _⟩ => show win1_1.index t 1 * 256 + 1 * (o : ℕ) = o.val; omega
  | ⟨2, _⟩ => show win1_1.index t 2 * 256 + 1 * (cc : ℕ) = cc.val; omega

/-- The second convolution's bias block at any point is the whole bias column. -/
theorem blk1_2 (c : Dev nD) (t : Fin cfg1.N) (o : Fin 256) (z : Fin 1) :
    (iblk1 V c 2 t : FVec Ideal S256x1 .f32) (ix2 o z) = V c main_v22 (ix2 o z) := by
  obtain ⟨-, -, -, -, -, -, e0, e1, -⟩ := idx_facts1 t
  show V c main_v22 (((cfg1.win 2).blk t).view.emb (ix2 o z)) = _
  refine congrArg (V c main_v22) (funext fun a => Fin.ext ?_)
  match a with
  | ⟨0, _⟩ => show win1_2.index t 0 * 256 + 1 * (o : ℕ) = o.val; omega
  | ⟨1, _⟩ => show win1_2.index t 1 * 1 + 1 * (z : ℕ) = z.val; omega

/-- The input block at point `t` is member `t` of the block's input. -/
theorem blk1_3 (c : Dev nD) (t : Fin cfg1.N) (u : Fin 1) (cc : Fin 128) (j : Fin 1024) :
    (iblk1 V c 3 t : FVec Ideal S1x128x1024 .f32) (ix3 u cc j) = V c main_arg0 (ix3 (mem1 t) cc j) := by
  obtain ⟨-, -, -, -, -, -, -, -, e0, e1, e2, -⟩ := idx_facts1 t
  show V c main_arg0 (((cfg1.win 3).blk t).view.emb (ix3 u cc j)) = _
  refine congrArg (V c main_arg0) (funext fun a => Fin.ext ?_)
  match a with
  | ⟨0, _⟩ => show win1_3.index t 0 * 1 + 1 * (u : ℕ) = t.val; have := u.isLt; omega
  | ⟨1, _⟩ => show win1_3.index t 1 * 128 + 1 * (cc : ℕ) = cc.val; omega
  | ⟨2, _⟩ => show win1_3.index t 2 * 1024 + 1 * (j : ℕ) = j.val; omega

/-- The residual matrix's block at any point is the whole matrix. -/
theorem blk1_4 (c : Dev nD) (t : Fin cfg1.N) (o : Fin 256) (cc : Fin 128) :
    (iblk1 V c 4 t : FVec Ideal S256x128 .f32) (ix2 o cc) = V c main_v23 (ix2 o cc) := by
  obtain ⟨-, -, -, -, -, -, -, -, -, -, -, e0, e1, -⟩ := idx_facts1 t
  show V c main_v23 (((cfg1.win 4).blk t).view.emb (ix2 o cc)) = _
  refine congrArg (V c main_v23) (funext fun a => Fin.ext ?_)
  match a with
  | ⟨0, _⟩ => show win1_4.index t 0 * 256 + 1 * (o : ℕ) = o.val; omega
  | ⟨1, _⟩ => show win1_4.index t 1 * 128 + 1 * (cc : ℕ) = cc.val; omega

/-- The residual bias block at any point is the whole bias column. -/
theorem blk1_5 (c : Dev nD) (t : Fin cfg1.N) (o : Fin 256) (z : Fin 1) :
    (iblk1 V c 5 t : FVec Ideal S256x1 .f32) (ix2 o z) = V c main_v24 (ix2 o z) := by
  obtain ⟨-, -, -, -, -, -, -, -, -, -, -, -, -, e0, e1, -⟩ := idx_facts1 t
  show V c main_v24 (((cfg1.win 5).blk t).view.emb (ix2 o z)) = _
  refine congrArg (V c main_v24) (funext fun a => Fin.ext ?_)
  match a with
  | ⟨0, _⟩ => show win1_5.index t 0 * 256 + 1 * (o : ℕ) = o.val; omega
  | ⟨1, _⟩ => show win1_5.index t 1 * 1 + 1 * (z : ℕ) = z.val; omega

/-- What point `t` of the second region writes back is block `t` of the second half of the specification. -/
theorem flushed1 (c : Dev nD) (H : Cert.Tcn.SH.Idx → EReal)
    (hpad : ∀ (n : Fin 32) (cc : Fin 256) (j : Fin 1028), V c main_v20 (ix3 n cc j) = Cert.Tcn.padded (Cert.Tcn.member H n) cc j)
    (t : Fin cfg1.N) :
    (dat1 V c).flushed 6 t = ((cfg1.win 6).blk t).view.read (Elt Ideal)
      (Cert.Tcn.Out H (V c main_arg0) (V c main_v21) (V c main_v22) (V c main_v23) (V c main_v24)) := by
  show (cfg1.win 6).cut (grid1.coords t) ((dat1 V c).after 6 t) = _
  rw [after1_6]
  funext j
  obtain ⟨u, o, tt, rfl⟩ : ∃ (u : Fin 1) (o : Fin 256) (tt : Fin 1024), j = ix3 u o tt := ⟨j 0, j 1, j 2, eq_ix3 j⟩
  obtain ⟨-, -, -, -, -, -, -, -, -, -, -, -, -, -, -, e0, e1, e2⟩ := idx_facts1 t
  refine (Cert.ReferenceIdeal.Body.out1_apply (iblk1 V c 0 t) (iblk1 V c 1 t) (iblk1 V c 2 t) (iblk1 V c 3 t) (iblk1 V c 4 t)
    (iblk1 V c 5 t) (Cert.Tcn.member H (mem1 t))
    (fun cc j => (blk1_0 V c t 0 cc j).trans (hpad (mem1 t) cc j)) u o tt).trans ?_
  refine (Cert.Tcn.outOfRef_eq _ _ _ _ _ _ o tt).trans ?_
  have hw : Cert.Tcn.taps (iblk1 V c 1 t : FVec Ideal S3x256x256 .f32) = Cert.Tcn.taps (V c main_v21) :=
    funext fun k => funext fun o' => funext fun cc => blk1_1 V c t k o' cc
  have hb : Cert.Tcn.col (iblk1 V c 2 t : FVec Ideal S256x1 .f32) = Cert.Tcn.col (V c main_v22) :=
    funext fun o' => blk1_2 V c t o' 0
  have hx : (fun (cc : Fin 128) (j : Fin 1024) => (iblk1 V c 3 t : FVec Ideal S1x128x1024 .f32) (ix3 (0 : Fin 1) cc j))
      = Cert.Tcn.member (V c main_arg0) (mem1 t) :=
    funext fun cc => funext fun j => blk1_3 V c t 0 cc j
  have hwd : Cert.Tcn.mat (iblk1 V c 4 t : FVec Ideal S256x128 .f32) = Cert.Tcn.mat (V c main_v23) :=
    funext fun o' => funext fun cc => blk1_4 V c t o' cc
  have hbd : Cert.Tcn.col (iblk1 V c 5 t : FVec Ideal S256x1 .f32) = Cert.Tcn.col (V c main_v24) :=
    funext fun o' => blk1_5 V c t o' 0
  have hemb : ((cfg1.win 6).blk t).view.emb (ix3 u o tt) = ix3 (mem1 t) o tt := funext fun a => Fin.ext (by
    match a with
    | ⟨0, _⟩ => show win1_6.index t 0 * 1 + 1 * (u : ℕ) = t.val; have := u.isLt; omega
    | ⟨1, _⟩ => show win1_6.index t 1 * 256 + 1 * (o : ℕ) = o.val; omega
    | ⟨2, _⟩ => show win1_6.index t 2 * 1024 + 1 * (tt : ℕ) = tt.val; omega)
  show _ = Cert.Tcn.Out H (V c main_arg0) (V c main_v21) (V c main_v22) (V c main_v23) (V c main_v24)
    (((cfg1.win 6).blk t).view.emb (ix3 u o tt))
  rw [hemb, hw, hb, hx, hwd, hbd]
  rfl

/-- An index of the second region's result array is in point `t`'s block iff each coordinate is in the block's range. -/
theorem mem_blk1 (t : Fin cfg1.N) (i : S32x256x1024.Idx) :
    i ∈ ((cfg1.win 6).blk t).view.set ↔ ∀ a : Fin 3, win1_6.index t a * S1x256x1024.size a ≤ (i a).val ∧ (i a).val < win1_6.index t a * S1x256x1024.size a + S1x256x1024.size a := by
  show i ∈ ((View.whole main_v25).slice (win1_6.rect t)).set ↔ _
  rw [View.set_slice_whole, Rect.mem_set_unit]
  exact Iff.rfl

/-- SECOND REGION. If the array it stages as its first input holds `H` with four zero columns in front of every row, its
    result array ends as the second half of the specification of `H` and the block's input. -/
theorem final1 (c : Dev nD) (H : Cert.Tcn.SH.Idx → EReal)
    (hpad : ∀ (n : Fin 32) (cc : Fin 256) (j : Fin 1028), V c main_v20 (ix3 n cc j) = Cert.Tcn.padded (Cert.Tcn.member H n) cc j) :
    (dat1 V c).arrAt 6 cfg1.N = Cert.Tcn.Out H (V c main_arg0) (V c main_v21) (V c main_v22) (V c main_v23) (V c main_v24) := by
  have hN : cfg1.N = 32 := N_1
  refine (dat1 V c).arrAt_eq_of_cover 6 _ (fun t _ => flushed1 V c H hpad t) fun i => ?_
  have hi0 : (i 0).val < 32 := (i 0).isLt
  have hi1 : (i 1).val < 256 := (i 1).isLt
  have hi2 : (i 2).val < 1024 := (i 2).isLt
  obtain ⟨t, ht⟩ : ∃ t : Fin cfg1.N, t.val = (i 0).val := ⟨⟨(i 0).val, by omega⟩, rfl⟩
  obtain ⟨-, -, -, -, -, -, -, -, -, -, -, -, -, -, -, e0, e1, e2⟩ := idx_facts1 t
  refine ⟨t, flush1_6 t, ?_⟩
  rw [mem_blk1]
  intro a
  match a with
  | ⟨0, _⟩ => show win1_6.index t 0 * 1 ≤ (i 0).val ∧ (i 0).val < win1_6.index t 0 * 1 + 1; omega
  | ⟨1, _⟩ => show win1_6.index t 1 * 256 ≤ (i 1).val ∧ (i 1).val < win1_6.index t 1 * 256 + 256; omega
  | ⟨2, _⟩ => show win1_6.index t 2 * 1024 ≤ (i 2).val ∧ (i 2).val < win1_6.index t 2 * 1024 + 1024; omega

end Cert.ReferenceIdeal.Whole

end
-- ==== Proof.RefHost.lean ====
/-
  What the reference's host program hands its two kernels, read as mathematics.

  Before the first kernel the host pads the input with four zero columns in front of every row; between the kernels it
  pads the first kernel's result the same way. The weights reach the kernels as the transposed quotients
  `g · v / ‖v‖`, the biases and the residual matrix as reshapes of the arguments. Each buffer a kernel stages is
  read back here through the host operations to the arguments (and, for the second kernel's first operand, to the
  first kernel's result array).
-/
import proofs.«141046_g2000506556625611_pallasbulk_77_8_alg».proof.Proof.Gen.ReferenceIdeal.Frame
import proofs.«141046_g2000506556625611_pallasbulk_77_8_alg».proof.Proof.Spec
import proofs.«141046_g2000506556625611_pallasbulk_77_8_alg».proof.Proof.RefWhole
import Idealize.ShloMosaic.Lib.StableHlo.Run
import Idealize.ShloMosaic.Lib.KernelVsHost
import Idealize.ShloMosaic.Lib.ValueIdx

noncomputable section

namespace Cert.ReferenceIdeal.HostSide

open Cert.ReferenceIdeal Cert.ReferenceIdeal.Gen Idealize.ShloMosaic Idealize.ShloMosaic.TcCoe Idealize.SL.Sem Idealize.ShloMosaic.ValueIdx
open Idealize.ShloMosaic.StableHlo

/-- The padding value: the integer zero converted, which is the extended real zero. -/
theorem padValue (i : S_.Idx) : (sitofp (F := Ideal) .f32 (constantI S_ 32 0#32)) i = 0 := by
  show (((0#32 : BitVec 32).toInt : ℝ) : EReal) = 0
  simp

/-- A [32, C, 1024] array padded with four columns of the padding value in front, at an entry: the member's signal with
    four zero columns in front. -/
theorem pad128_at (X : FVec Ideal S32x128x1024 .f32) (n : Fin 32) (cc : Fin 128) (j : Fin 1028) :
    pad S32x128x1028 ![0, 0, 4] ![0, 0, 0] ![0, 0, 0] X (sitofp (F := Ideal) .f32 (constantI S_ 32 0#32))
        pads_S32x128x1024_S32x128x1028_000_000_400 h_S_ (ix3 n cc j)
      = Cert.Tcn.padded (Cert.Tcn.member X n) cc j := by
  unfold Cert.Tcn.padded
  by_cases h : 4 ≤ j.val
  · rw [dif_pos h]
    refine pad_apply_of_inside _ _ _ X _ _ _ (ix3 n cc j) (ix3 n cc ⟨j.val - 4, by have := j.isLt; omega⟩) fun a => ?_
    match a with
    | ⟨0, _⟩ => show n.val = 0 + n.val * (0 + 1); omega
    | ⟨1, _⟩ => show cc.val = 0 + cc.val * (0 + 1); omega
    | ⟨2, _⟩ => show j.val = 4 + (j.val - 4) * (0 + 1); omega
  · rw [dif_neg h]
    refine (pad_apply_of_not_inside _ _ _ X _ _ _ (ix3 n cc j) (2 : Fin 3) fun hin => h ?_).trans (padValue _)
    exact hin.1

theorem pad256_at (X : FVec Ideal S32x256x1024 .f32) (n : Fin 32) (cc : Fin 256) (j : Fin 1028) :
    pad S32x256x1028 ![0, 0, 4] ![0, 0, 0] ![0, 0, 0] X (sitofp (F := Ideal) .f32 (constantI S_ 32 0#32))
        pads_S32x256x1024_S32x256x1028_000_000_400 h_S_ (ix3 n cc j)
      = Cert.Tcn.padded (Cert.Tcn.member X n) cc j := by
  unfold Cert.Tcn.padded
  by_cases h : 4 ≤ j.val
  · rw [dif_pos h]
    refine pad_apply_of_inside _ _ _ X _ _ _ (ix3 n cc j) (ix3 n cc ⟨j.val - 4, by have := j.isLt; omega⟩) fun a => ?_
    match a with
    | ⟨0, _⟩ => show n.val = 0 + n.val * (0 + 1); omega
    | ⟨1, _⟩ => show cc.val = 0 + cc.val * (0 + 1); omega
    | ⟨2, _⟩ => show j.val = 4 + (j.val - 4) * (0 + 1); omega
  · rw [dif_neg h]
    refine (pad_apply_of_not_inside _ _ _ X _ _ _ (ix3 n cc j) (2 : Fin 3) fun hin => h ?_).trans (padValue _)
    exact hin.1

/-! ## The host's functions of the arguments, at any float instance -/

section AnyInstance
variable {F : FTy → Type} [FloatOps F]

/-- The first layer's taps: `g · v / ‖v‖`, the norm over the input channels and the taps, transposed to [3, 256, 128]. -/
def weights1 (v : FVec F S256x128x3 .f32) (g : FVec F S256x1x1 .f32) : FVec F S3x256x128 .f32 :=
  transpose S3x256x128 [2, 0, 1]
    (Host.divf (mulf (broadcastInDim S256x128x3 ![0, 1, 2] bcast_S256x1x1_S256x128x3_0_1_2 g) v)
      (broadcastInDim S256x128x3 ![0, 1, 2] bcast_S256x1x1_S256x128x3_0_1_2
        (Host.sqrt (broadcastInDim S256x1x1 ![0] bcast_S256_S256x1x1_0
          (Host.reduceAdd (mulf v v) (constant S_ .f32 0x00000000#32) reducesTo_S256x128x3_S256_d1_2 h_S_)))))
    transposes_S256x128x3_S3x256x128_2_0_1

/-- The second layer's taps, likewise, [3, 256, 256]. -/
def weights2 (v : FVec F S256x256x3 .f32) (g : FVec F S256x1x1 .f32) : FVec F S3x256x256 .f32 :=
  transpose S3x256x256 [2, 0, 1]
    (Host.divf (mulf (broadcastInDim S256x256x3 ![0, 1, 2] bcast_S256x1x1_S256x256x3_0_1_2 g) v)
      (broadcastInDim S256x256x3 ![0, 1, 2] bcast_S256x1x1_S256x256x3_0_1_2
        (Host.sqrt (broadcastInDim S256x1x1 ![0] bcast_S256_S256x1x1_0
          (Host.reduceAdd (mulf v v) (constant S_ .f32 0x00000000#32) reducesTo_S256x256x3_S256_d1_2 h_S_)))))
    transposes_S256x256x3_S3x256x256_2_0_1

/-- A bias as a [256, 1] column. -/
def biasCol (b : FVec F S256 .f32) : FVec F S256x1 .f32 := shapeCast S256x1 b shapeCasts_S256_S256x1

/-- The residual 1×1 convolution's weights as a [256, 128] matrix. -/
def residMat (w : FVec F S256x128x1 .f32) : FVec F S256x128 .f32 := shapeCast S256x128 w shapeCasts_S256x128x1_S256x128

end AnyInstance

variable (m : (ℓ : Loc nD τ sig) → Buf (Elt Ideal) ℓ) (ρ : Dev nD → PrngReg)

/-! ## What the first kernel stages -/

/-- Its input: the block's input padded. -/
theorem v16_eq (c : Dev nD) : V3 m ρ c main_v16
    = pad S32x128x1028 ![0, 0, 4] ![0, 0, 0] ![0, 0, 0] (m ((c : Thread nD τ).loc main_arg0)) (sitofp (F := Ideal) .f32 (constantI S_ 32 0#32))
        pads_S32x128x1024_S32x128x1028_000_000_400 h_S_ := by
  show StableHlo.after hostOps0_2 (W2 m ρ c) (Proc.devRef .tc main_v16) = _
  after_results
  simp only [TRef.ofBuf, TRef.toBuf, cast_eq]

theorem v16_at (c : Dev nD) (n : Fin 32) (cc : Fin 128) (j : Fin 1028) :
    V3 m ρ c main_v16 (ix3 n cc j) = Cert.Tcn.padded (Cert.Tcn.member (m ((c : Thread nD τ).loc main_arg0)) n) cc j := by
  rw [v16_eq]
  exact pad128_at _ n cc j

/-- Its weights … -/
theorem v17_eq (c : Dev nD) : V3 m ρ c main_v17
    = weights1 (F := Ideal) (m ((c : Thread nD τ).loc main_arg1)) (m ((c : Thread nD τ).loc main_arg2)) := by
  show StableHlo.after hostOps0_2 (W2 m ρ c) (Proc.devRef .tc main_v17) = _
  after_results
  rfl

/-- … and its bias. -/
theorem v18_eq (c : Dev nD) : V3 m ρ c main_v18 = biasCol (F := Ideal) (m ((c : Thread nD τ).loc main_arg3)) := by
  show StableHlo.after hostOps0_2 (W2 m ρ c) (Proc.devRef .tc main_v18) = _
  after_results
  rfl

/-! ## What the second kernel stages -/

/-- Its first operand: the first kernel's result array, padded. -/
theorem v20_at (c : Dev nD) (n : Fin 32) (cc : Fin 256) (j : Fin 1028) :
    V7 m ρ c main_v20 (ix3 n cc j) = Cert.Tcn.padded (Cert.Tcn.member ((dat0 (V3 m ρ) c).arrAt 3 cfg0.N) n) cc j := by
  have e : V7 m ρ c main_v20 = pad S32x256x1028 ![0, 0, 4] ![0, 0, 0] ![0, 0, 0] ((dat0 (V3 m ρ) c).arrAt 3 cfg0.N)
      (sitofp (F := Ideal) .f32 (constantI S_ 32 0#32)) pads_S32x256x1024_S32x256x1028_000_000_400 h_S_ := by
    show StableHlo.after hostOps1_2 (W6 m ρ c) (Proc.devRef .tc main_v20) = _
    after_results
    simp only [TRef.ofBuf, TRef.toBuf, cast_eq]
    rw [show W4 m ρ c (Proc.devRef .tc main_v19) = (dat0 (V3 m ρ) c).arrAt 3 cfg0.N from W4_arr m ρ c 3]
  rw [e]
  exact pad256_at _ n cc j

/-- The block's input reaches it as launched. -/
theorem arg0_eq (c : Dev nD) : V7 m ρ c main_arg0 = m ((c : Thread nD τ).loc main_arg0) := by
  show StableHlo.after hostOps1_2 (W6 m ρ c) (Proc.devRef .tc main_arg0) = _
  after_results
  rw [W4_of_ne m ρ c main_arg0 (by decide)]
  after_results

theorem v21_eq (c : Dev nD) : V7 m ρ c main_v21
    = weights2 (F := Ideal) (m ((c : Thread nD τ).loc main_arg4)) (m ((c : Thread nD τ).loc main_arg5)) := by
  show StableHlo.after hostOps1_2 (W6 m ρ c) (Proc.devRef .tc main_v21) = _
  after_results
  rw [W4_of_ne m ρ c main_v15 (by decide)]
  after_results
  rfl

theorem v22_eq (c : Dev nD) : V7 m ρ c main_v22 = biasCol (F := Ideal) (m ((c : Thread nD τ).loc main_arg6)) := by
  show StableHlo.after hostOps1_2 (W6 m ρ c) (Proc.devRef .tc main_v22) = _
  after_results
  rw [W4_of_ne m ρ c main_arg6 (by decide)]
  after_results
  rfl

theorem v23_eq (c : Dev nD) : V7 m ρ c main_v23 = residMat (F := Ideal) (m ((c : Thread nD τ).loc main_arg7)) := by
  show StableHlo.after hostOps1_2 (W6 m ρ c) (Proc.devRef .tc main_v23) = _
  after_results
  rw [W4_of_ne m ρ c main_arg7 (by decide)]
  after_results
  rfl

theorem v24_eq (c : Dev nD) : V7 m ρ c main_v24 = biasCol (F := Ideal) (m ((c : Thread nD τ).loc main_arg8)) := by
  show StableHlo.after hostOps1_2 (W6 m ρ c) (Proc.devRef .tc main_v24) = _
  after_results
  rw [W4_of_ne m ρ c main_arg8 (by decide)]
  after_results
  rfl

/-! ## The result array -/

/-- At the end of the run the result buffer holds the block of the specification, member by member, of the
    arguments: the second region's array over the first region's, each read through its half of the specification. -/
theorem result_eq (c : Dev nD) : W8 m ρ c (Proc.devRef .tc main_v25)
    = Cert.Tcn.G (m ((c : Thread nD τ).loc main_arg0))
        (weights1 (F := Ideal) (m ((c : Thread nD τ).loc main_arg1)) (m ((c : Thread nD τ).loc main_arg2)))
        (biasCol (F := Ideal) (m ((c : Thread nD τ).loc main_arg3)))
        (weights2 (F := Ideal) (m ((c : Thread nD τ).loc main_arg4)) (m ((c : Thread nD τ).loc main_arg5)))
        (biasCol (F := Ideal) (m ((c : Thread nD τ).loc main_arg6)))
        (residMat (F := Ideal) (m ((c : Thread nD τ).loc main_arg7)))
        (biasCol (F := Ideal) (m ((c : Thread nD τ).loc main_arg8))) := by
  have h0 := Cert.ReferenceIdeal.Whole.final0 (V3 m ρ) c (m ((c : Thread nD τ).loc main_arg0)) (v16_at m ρ c)
  have h1 := Cert.ReferenceIdeal.Whole.final1 (V7 m ρ) c ((dat0 (V3 m ρ) c).arrAt 3 cfg0.N) (v20_at m ρ c)
  rw [show W8 m ρ c (Proc.devRef .tc main_v25) = (dat1 (V7 m ρ) c).arrAt 6 cfg1.N from W8_arr m ρ c 6, h1, h0,
    v17_eq, v18_eq, arg0_eq, v21_eq, v22_eq, v23_eq, v24_eq]
  exact Cert.Tcn.Out_H1 _ _ _ _ _ _ _

end Cert.ReferenceIdeal.HostSide

end
-- ==== Proof.lean ====
/-
  The fused temporal block against its two-kernel reference, over the extended reals.

  Both programs compute, for every member of the batch, `relu (relu (conv₂ (relu (conv₁ x + b₁)) + b₂) + W_d x + b_d)`
  with causal three-tap convolutions of dilation two whose taps are the weight-normalised `g · v / ‖v‖`
  (Proof/Spec.lean). The fused kernel keeps the intermediate signal on chip and realises the causal delay as a zero block
  in front of a shortened signal; the reference pads on the host, reads the delayed signal at column offsets of the
  padded block, and writes the intermediate signal out between its two kernels. At the ideal values the two differ only in
  the order and grouping of additions of extended reals, which are commutative and associative.

  Each side's result array is read as the specification's `G` of the argument arrays: the fused kernel's body entry by
  entry (Proof/KernelBody.lean), block by block into the array (Proof/KernelWhole.lean), the host's weights and biases
  named (Proof/KernelHost.lean); the reference's two bodies (Proof/RefBody.lean), its two regions' arrays
  (Proof/RefWhole.lean), its host operations between them and the composition of the halves (Proof/RefHost.lean), over
  the run with the result array named (Proof/RefRun.lean). The two host programs compute the taps by the same
  operations, so the two `G` terms meet once the arguments agree.
-/
import proofs.«141046_g2000506556625611_pallasbulk_77_8_alg».proof.Defs
import proofs.«141046_g2000506556625611_pallasbulk_77_8_alg».proof.Proof.Gen.Kernel
import proofs.«141046_g2000506556625611_pallasbulk_77_8_alg».proof.Proof.Gen.Kernel.Frame
import proofs.«141046_g2000506556625611_pallasbulk_77_8_alg».proof.Proof.Gen.KernelIdeal
import proofs.«141046_g2000506556625611_pallasbulk_77_8_alg».proof.Proof.Gen.KernelIdeal.Frame
import proofs.«141046_g2000506556625611_pallasbulk_77_8_alg».proof.Proof.Gen.KernelIdeal.Value
import proofs.«141046_g2000506556625611_pallasbulk_77_8_alg».proof.Proof.Gen.ReferenceIdeal
import proofs.«141046_g2000506556625611_pallasbulk_77_8_alg».proof.Proof.Gen.ReferenceIdeal.Frame
import proofs.«141046_g2000506556625611_pallasbulk_77_8_alg».proof.Proof.Gen.Pre_finite_inputs
import proofs.«141046_g2000506556625611_pallasbulk_77_8_alg».proof.Proof.KernelHost
import proofs.«141046_g2000506556625611_pallasbulk_77_8_alg».proof.Proof.RefHost
import proofs.«141046_g2000506556625611_pallasbulk_77_8_alg».proof.Proof.RefRun
import Idealize.ShloMosaic.Adequacy
import Idealize.ShloMosaic.Init

noncomputable section

namespace Cert.Proof

open Idealize.ShloMosaic Idealize.ShloMosaic.TcCoe Idealize.SL.Sem

/-! ## The two host programs compute one function of the arguments -/

section HostFunctions
variable {F : FTy → Type} [FloatOps F]

theorem weights1_same (v : FVec F Cert.KernelIdeal.S256x128x3 .f32) (g : FVec F Cert.KernelIdeal.S256x1x1 .f32) :
    Cert.ReferenceIdeal.HostSide.weights1 v g = Cert.KernelIdeal.HostSide.weights1 v g := rfl

theorem weights2_same (v : FVec F Cert.KernelIdeal.S256x256x3 .f32) (g : FVec F Cert.KernelIdeal.S256x1x1 .f32) :
    Cert.ReferenceIdeal.HostSide.weights2 v g = Cert.KernelIdeal.HostSide.weights2 v g := rfl

theorem biasCol_same (b : FVec F Cert.KernelIdeal.S256 .f32) :
    Cert.ReferenceIdeal.HostSide.biasCol b = Cert.KernelIdeal.HostSide.biasCol b := rfl

theorem residMat_same (w : FVec F Cert.KernelIdeal.S256x128x1 .f32) :
    Cert.ReferenceIdeal.HostSide.residMat w = Cert.KernelIdeal.HostSide.residMat w := rfl

end HostFunctions

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.Gen.frame m ρ

/-- The ideal pass rewrote nothing in this kernel. -/
theorem preserves : Cert.preserves_Kernel_KernelIdeal := trivial

/-- Both runs end with the result array at the specification's `G` of the arguments, which agree. -/
theorem algebraic : Cert.algebraic_KernelIdeal_ReferenceIdeal := by
  intro m ρ m' ρ' _ hagree
  refine ⟨fun c => (Cert.KernelIdeal.Gen.dats m 0 c).arrAt 7 Cert.KernelIdeal.cfg0.N,
    Cert.KernelIdeal.Value.run_blocks (F := Ideal) m ρ, ?_⟩
  refine (θ_run Cert.ReferenceIdeal.defs _ _).mono (fun r h c => ⟨(h c).1.trans ?_, (h c).2⟩)
    (Cert.ReferenceIdeal.GenRun.run_result (F := Ideal) m' ρ')
  obtain ⟨e0, e1, e2, e3, e4, e5, e6, e7, e8⟩ := hagree c
  show _ = (Cert.KernelIdeal.Gen.dats m 0 c).arrAt 7 Cert.KernelIdeal.cfg0.N
  rw [Cert.ReferenceIdeal.HostSide.result_eq m' ρ' c, Cert.KernelIdeal.HostSide.result_eq m c,
    e0, e1, e2, e3, e4, e5, e6, e7, e8, weights1_same, weights2_same, biasCol_same, biasCol_same, biasCol_same, residMat_same]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
